-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_v19) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x64x64 : Shape := ⟨4, ![8, 512, 64, 64]⟩
abbrev S2000x512 : Shape := ⟨2, ![2000, 512]⟩
abbrev S_ : Shape := ⟨0, ![]⟩

class Facts : Prop where
  bcast_S_S8x512x64x64 : S_.BroadcastsInDim S8x512x64x64 (![] : Fin 0 → Fin S8x512x64x64.rank)
  reducesTo_S8x512x64x64_S_d0_1_2_3 : S8x512x64x64.ReducesTo [0, 1, 2, 3] S_
  h_S_ : 0 < S_.numel
  bcast_S_S2000x512 : S_.BroadcastsInDim S2000x512 (![] : Fin 0 → Fin S2000x512.rank)
  reducesTo_S2000x512_S_d0_1 : S2000x512.ReducesTo [0, 1] S_

variable [Facts]

def fn {F : FTy → Type} [FloatOps F] (main_arg0 : FVec F S8x512x64x64 .f32) (main_arg1 : FVec F S2000x512 .f32) : IVec S_ 1 :=
  let main_v0 : FVec F S8x512x64x64 .f32 := Host.absf main_arg0
  let main_cst : FVec F S_ .f32 := constant S_ .f32 0x7F800000#32
  let main_v1 : FVec F S8x512x64x64 .f32 := broadcastInDim S8x512x64x64 ![] bcast_S_S8x512x64x64 main_cst
  let main_v2 : IVec S8x512x64x64 1 := cmpf .olt main_v0 main_v1
  let main_c : IVec S_ 1 := constantI S_ 1 1#1
  let main_v3 : IVec S_ 1 := (fun x v => Host.reduce IntOp.andi x v reducesTo_S8x512x64x64_S_d0_1_2_3 h_S_) main_v2 main_c
  let main_v4 : FVec F S2000x512 .f32 := Host.absf main_arg1
  let main_cst_0 : FVec F S_ .f32 := constant S_ .f32 0x7F800000#32
  let main_v5 : FVec F S2000x512 .f32 := broadcastInDim S2000x512 ![] bcast_S_S2000x512 main_cst_0
  let main_v6 : IVec S2000x512 1 := cmpf .olt main_v4 main_v5
  let main_c_1 : IVec S_ 1 := constantI S_ 1 1#1
  let main_v7 : IVec S_ 1 := (fun x v => Host.reduce IntOp.andi x v reducesTo_S2000x512_S_d0_1 h_S_) main_v6 main_c_1
  let main_v8 : IVec S_ 1 := andi main_v3 main_v7
  main_v8
-- ==== Kernel.lean ====
abbrev S8x512x64x64 : Shape := ⟨4, ![8, 512, 64, 64]⟩
abbrev S2000x512 : Shape := ⟨2, ![2000, 512]⟩
abbrev S8x64x64x512 : Shape := ⟨4, ![8, 64, 64, 512]⟩
abbrev S32768x512 : Shape := ⟨2, ![32768, 512]⟩
abbrev S2000 : Shape := ⟨1, ![2000]⟩
abbrev S2000x1 : Shape := ⟨2, ![2000, 1]⟩
abbrev S2000x2000 : Shape := ⟨2, ![2000, 2000]⟩
abbrev S400x512 : Shape := ⟨2, ![400, 512]⟩
abbrev S400x2000 : Shape := ⟨2, ![400, 2000]⟩
abbrev S32768x2000 : Shape := ⟨2, ![32768, 2000]⟩
abbrev S512x512 : Shape := ⟨2, ![512, 512]⟩
abbrev S512x2000 : Shape := ⟨2, ![512, 2000]⟩
abbrev S512 : Shape := ⟨1, ![512]⟩
abbrev S512x1 : Shape := ⟨2, ![512, 1]⟩
abbrev S8x64x64x2000 : Shape := ⟨4, ![8, 64, 64, 2000]⟩
abbrev S8x2000x64x64 : Shape := ⟨4, ![8, 2000, 64, 64]⟩

abbrev nBuf : Space → Nat
  | .hbm => 12
  | .vmem => 14
  | .smem => 0
  | _ => 0

abbrev bufTy : (tb : Table) → Fin (tcTables nBuf tb) → BufTy
  | .hbm, ⟨0, _⟩ => ⟨S8x512x64x64, .f32⟩
  | .hbm, ⟨1, _⟩ => ⟨S2000x512, .f32⟩
  | .hbm, ⟨2, _⟩ => ⟨S8x64x64x512, .f32⟩
  | .hbm, ⟨3, _⟩ => ⟨S32768x512, .f32⟩
  | .hbm, ⟨4, _⟩ => ⟨S2000x512, .bf16⟩
  | .hbm, ⟨5, _⟩ => ⟨S2000x2000, .f32⟩
  | .hbm, ⟨6, _⟩ => ⟨S32768x512, .f32⟩
  | .hbm, ⟨7, _⟩ => ⟨S32768x2000, .f32⟩
  | .hbm, ⟨8, _⟩ => ⟨S8x64x64x512, .f32⟩
  | .hbm, ⟨9, _⟩ => ⟨S8x512x64x64, .f32⟩
  | .hbm, ⟨10, _⟩ => ⟨S8x64x64x2000, .f32⟩
  | .hbm, ⟨11, _⟩ => ⟨S8x2000x64x64, .f32⟩
  | .local _ .vmem, ⟨0, _⟩ => ⟨S2000x512, .f32⟩
  | .local _ .vmem, ⟨1, _⟩ => ⟨S2000x512, .bf16⟩
  | .local _ .vmem, ⟨2, _⟩ => ⟨S400x512, .bf16⟩
  | .local _ .vmem, ⟨3, _⟩ => ⟨S400x512, .bf16⟩
  | .local _ .vmem, ⟨4, _⟩ => ⟨S2000x512, .bf16⟩
  | .local _ .vmem, ⟨5, _⟩ => ⟨S400x2000, .f32⟩
  | .local _ .vmem, ⟨6, _⟩ => ⟨S400x2000, .f32⟩
  | .local _ .vmem, ⟨7, _⟩ => ⟨S512x512, .f32⟩
  | .local _ .vmem, ⟨8, _⟩ => ⟨S512x512, .f32⟩
  | .local _ .vmem, ⟨9, _⟩ => ⟨S2000x512, .bf16⟩
  | .local _ .vmem, ⟨10, _⟩ => ⟨S512x512, .f32⟩
  | .local _ .vmem, ⟨11, _⟩ => ⟨S512x512, .f32⟩
  | .local _ .vmem, ⟨12, _⟩ => ⟨S512x2000, .f32⟩
  | .local _ .vmem, ⟨13, _⟩ => ⟨S512x2000, .f32⟩
  | _, _ => ⟨S8x512x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg2_1 : Ref sig .tc := ⟨.vmem, 6, rfl⟩
abbrev cc2_stg0_0 : Ref sig .tc := ⟨.vmem, 7, rfl⟩
abbrev cc2_stg0_1 : Ref sig .tc := ⟨.vmem, 8, rfl⟩
abbrev cc2_stg1_0 : Ref sig .tc := ⟨.vmem, 9, rfl⟩
abbrev cc2_stg2_0 : Ref sig .tc := ⟨.vmem, 10, rfl⟩
abbrev cc2_stg2_1 : Ref sig .tc := ⟨.vmem, 11, rfl⟩
abbrev cc2_stg3_0 : Ref sig .tc := ⟨.vmem, 12, rfl⟩
abbrev cc2_stg3_1 : Ref sig .tc := ⟨.vmem, 13, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem2_0 : DmaSem sig := 5
abbrev cc1_sem2_1 : DmaSem sig := 6
abbrev cc2_sem0_0 : DmaSem sig := 7
abbrev cc2_sem0_1 : DmaSem sig := 8
abbrev cc2_sem1_0 : DmaSem sig := 9
abbrev cc2_sem2_0 : DmaSem sig := 10
abbrev cc2_sem2_1 : DmaSem sig := 11
abbrev cc2_sem3_0 : DmaSem sig := 12
abbrev cc2_sem3_1 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2000x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2000x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2000x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x2000 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2000x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S512x2000 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  transposes_S8x512x64x64_S8x64x64x512_0_2_3_1 : S8x512x64x64.Transposes [0, 2, 3, 1] S8x64x64x512
  shapeCasts_S8x64x64x512_S32768x512 : S8x64x64x512.ShapeCasts S32768x512
  inb_S2000x512_S2000x512_0_0 : ∀ a, (![0, 0] : Fin 2 → Nat) a + S2000x512.size a ≤ S2000x512.size a
  h_S2000x512 : 0 < S2000x512.numel
  reduces_S2000x512_S2000 : S2000x512.Reduces [1] S2000
  shapeCasts_S2000_S2000x1 : S2000.ShapeCasts S2000x1
  broadcasts_S2000x1_S2000x512 : S2000x1.Broadcasts S2000x512
  bitsLt_bf16_f32 : FTy.bits .bf16 < FTy.bits .f32
  packedbf16_S2000x512_S2000x512_0_0 : (Rect.unit (s := S2000x512) ![0, 0] S2000x512.size inb_S2000x512_S2000x512_0_0).PackedRows (EltTy.packing .bf16)
  inb_S400x512_S400x512_0_0 : ∀ a, (![0, 0] : Fin 2 → Nat) a + S400x512.size a ≤ S400x512.size a
  h_S400x512 : 0 < S400x512.numel
  shapeCasts_S400x512_S400x512 : S400x512.ShapeCasts S400x512
  shapeCasts_S2000x512_S2000x512 : S2000x512.ShapeCasts S2000x512
  inb_S400x2000_S400x2000_0_0 : ∀ a, (![0, 0] : Fin 2 → Nat) a + S400x2000.size a ≤ S400x2000.size a
  h_S400x2000 : 0 < S400x2000.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  reduces_S512x512_S512 : S512x512.Reduces [1] S512
  shapeCasts_S512_S512x1 : S512.ShapeCasts S512x1
  broadcasts_S512x1_S512x512 : S512x1.Broadcasts S512x512
  reduces_S512x2000_S512 : S512x2000.Reduces [1] S512
  broadcasts_S512x1_S512x2000 : S512x1.Broadcasts S512x2000
  inb_S512x2000_S512x2000_0_0 : ∀ a, (![0, 0] : Fin 2 → Nat) a + S512x2000.size a ≤ S512x2000.size a
  h_S512x2000 : 0 < S512x2000.numel
  shapeCasts_S32768x512_S8x64x64x512 : S32768x512.ShapeCasts S8x64x64x512
  transposes_S8x64x64x512_S8x512x64x64_0_3_1_2 : S8x64x64x512.Transposes [0, 3, 1, 2] S8x512x64x64
  shapeCasts_S32768x2000_S8x64x64x2000 : S32768x2000.ShapeCasts S8x64x64x2000
  transposes_S8x64x64x2000_S8x2000x64x64_0_3_1_2 : S8x64x64x2000.Transposes [0, 3, 1, 2] S8x2000x64x64
  dot_S400x512_S2000x512_S400x2000_1_1_0_0_n_n_wf : DotDims.WF S400x512 S2000x512 S400x2000 [1] [1] [0] [0] [] []
  dot_S512x512_S2000x512_S512x2000_1_1_0_0_n_n_wf : DotDims.WF S512x512 S2000x512 S512x2000 [1] [1] [0] [0] [] []
  dot_S512x2000_S2000x512_S512x512_1_0_0_1_n_n_wf : DotDims.WF S512x2000 S2000x512 S512x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S2000x512.size a
  hwx0_0 : ∀ i : grid0.Coords, EltTy.bits .f32 = 32 ∨ (Rect.block (s := S2000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2000x512.size a ≤ S2000x512.size a
  hwx0_1 : ∀ i : grid0.Coords, EltTy.bits .bf16 = 32 ∨ (Rect.block (s := S2000x512) S2000x512.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x512.size a ≤ S2000x512.size a
  hwx1_0 : ∀ i : grid1.Coords, EltTy.bits .bf16 = 32 ∨ (Rect.block (s := S2000x512) S400x512.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2000x512.size a ≤ S2000x512.size a
  hwx1_1 : ∀ i : grid1.Coords, EltTy.bits .bf16 = 32 ∨ (Rect.block (s := S2000x512) S2000x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x2000.size a ≤ S2000x2000.size a
  hwx1_2 : ∀ i : grid1.Coords, EltTy.bits .f32 = 32 ∨ (Rect.block (s := S2000x2000) S400x2000.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x512.size a ≤ S32768x512.size a
  hwx2_0 : ∀ i : grid2.Coords, EltTy.bits .f32 = 32 ∨ (Rect.block (s := S32768x512) S512x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2000x512.size a ≤ S2000x512.size a
  hwx2_1 : ∀ i : grid2.Coords, EltTy.bits .bf16 = 32 ∨ (Rect.block (s := S2000x512) S2000x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x512.size a ≤ S32768x512.size a
  hwx2_2 : ∀ i : grid2.Coords, EltTy.bits .f32 = 32 ∨ (Rect.block (s := S32768x512) S512x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x2000.size a ≤ S32768x2000.size a
  hwx2_3 : ∀ i : grid2.Coords, EltTy.bits .f32 = 32 ∨ (Rect.block (s := S32768x2000) S512x2000.size (cc2_transform_3 i) (hinb2_3 i)).WholeWords (EltTy.packing .f32)

variable [Facts₀]

def dot_S400x512_S2000x512_S400x2000_1_1_0_0_n_n : DotDims S400x512 S2000x512 S400x2000 where
  lhsContracting := [1]
  rhsContracting := [1]
  lhsNonContracting := [0]
  rhsNonContracting := [0]
  lhsBatch := []
  rhsBatch := []
  wf := dot_S400x512_S2000x512_S400x2000_1_1_0_0_n_n_wf
def dot_S512x512_S2000x512_S512x2000_1_1_0_0_n_n : DotDims S512x512 S2000x512 S512x2000 where
  lhsContracting := [1]
  rhsContracting := [1]
  lhsNonContracting := [0]
  rhsNonContracting := [0]
  lhsBatch := []
  rhsBatch := []
  wf := dot_S512x512_S2000x512_S512x2000_1_1_0_0_n_n_wf
def dot_S512x2000_S2000x512_S512x512_1_0_0_1_n_n : DotDims S512x2000 S2000x512 S512x512 where
  lhsContracting := [1]
  rhsContracting := [0]
  lhsNonContracting := [0]
  rhsNonContracting := [1]
  lhsBatch := []
  rhsBatch := []
  wf := dot_S512x2000_S2000x512_S512x512_1_0_0_1_n_n_wf

abbrev win0_0 : Pipeline.Window sig grid0 :=
  Pipeline.Window.ofSpec (Memref.whole main_arg1) S2000x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2000x512.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v2) S400x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S2000x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S400x2000.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v1) S512x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S2000x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4_0) S512x512.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v4_1) S512x2000.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S8x512x64x64 : Shape := ⟨4, ![8, 512, 64, 64]⟩
abbrev S2000x512 : Shape := ⟨2, ![2000, 512]⟩
abbrev S8x64x64x512 : Shape := ⟨4, ![8, 64, 64, 512]⟩
abbrev S32768x512 : Shape := ⟨2, ![32768, 512]⟩
abbrev S_ : Shape := ⟨0, ![]⟩
abbrev S32768 : Shape := ⟨1, ![32768]⟩
abbrev S32768x1 : Shape := ⟨2, ![32768, 1]⟩
abbrev S2000 : Shape := ⟨1, ![2000]⟩
abbrev S2000x1 : Shape := ⟨2, ![2000, 1]⟩
abbrev S32768x2000 : Shape := ⟨2, ![32768, 2000]⟩
abbrev S2000x2000 : Shape := ⟨2, ![2000, 2000]⟩
abbrev S8x64x64x2000 : Shape := ⟨4, ![8, 64, 64, 2000]⟩
abbrev S8x2000x64x64 : Shape := ⟨4, ![8, 2000, 64, 64]⟩

abbrev nBuf : Space → Nat
  | .hbm => 71
  | .vmem => 0
  | .smem => 0
  | _ => 0

abbrev bufTy : (tb : Table) → Fin (tcTables nBuf tb) → BufTy
  | .hbm, ⟨0, _⟩ => ⟨S8x512x64x64, .f32⟩
  | .hbm, ⟨1, _⟩ => ⟨S2000x512, .f32⟩
  | .hbm, ⟨2, _⟩ => ⟨S8x64x64x512, .f32⟩
  | .hbm, ⟨3, _⟩ => ⟨S32768x512, .f32⟩
  | .hbm, ⟨4, _⟩ => ⟨S32768x512, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S32768x512, .f32⟩
  | .hbm, ⟨13, _⟩ => ⟨S32768x512, .f32⟩
  | .hbm, ⟨14, _⟩ => ⟨S2000x512, .f32⟩
  | .hbm, ⟨15, _⟩ => ⟨S_, .f32⟩
  | .hbm, ⟨16, _⟩ => ⟨S2000, .f32⟩
  | .hbm, ⟨17, _⟩ => ⟨S2000x1, .f32⟩
  | .hbm, ⟨18, _⟩ => ⟨S2000x1, .f32⟩
  | .hbm, ⟨19, _⟩ => ⟨S_, .f32⟩
  | .hbm, ⟨20, _⟩ => ⟨S2000x1, .f32⟩
  | .hbm, ⟨21, _⟩ => ⟨S2000x1, .f32⟩
  | .hbm, ⟨22, _⟩ => ⟨S2000x512, .f32⟩
  | .hbm, ⟨23, _⟩ => ⟨S2000x512, .f32⟩
  | .hbm, ⟨24, _⟩ => ⟨S32768x2000, .f32⟩
  | .hbm, ⟨25, _⟩ => ⟨S2000x2000, .f32⟩
  | .hbm, ⟨26, _⟩ => ⟨S_, .f32⟩
  | .hbm, ⟨27, _⟩ => ⟨S32768, .f32⟩
  | .hbm, ⟨28, _⟩ => ⟨S_, .f32⟩
  | .hbm, ⟨29, _⟩ => ⟨S32768, .f32⟩
  | .hbm, ⟨30, _⟩ => ⟨S32768, .f32⟩
  | .hbm, ⟨31, _⟩ => ⟨S32768x1, .f32⟩
  | .hbm, ⟨32, _⟩ => ⟨S32768x2000, .f32⟩
  | .hbm, ⟨33, _⟩ => ⟨S32768x2000, .f32⟩
  | .hbm, ⟨34, _⟩ => ⟨S32768x2000, .f32⟩
  | .hbm, ⟨35, _⟩ => ⟨S_, .f32⟩
  | .hbm, ⟨36, _⟩ => ⟨S32768, .f32⟩
  | .hbm, ⟨37, _⟩ => ⟨S32768x1, .f32⟩
  | .hbm, ⟨38, _⟩ => ⟨S32768x2000, .f32⟩
  | .hbm, ⟨39, _⟩ => ⟨S32768x2000, .f32⟩
  | .hbm, ⟨40, _⟩ => ⟨S_, .f32⟩
  | .hbm, ⟨41, _⟩ => ⟨S32768x2000, .f32⟩
  | .hbm, ⟨42, _⟩ => ⟨S32768x2000, .i1⟩
  | .hbm, ⟨43, _⟩ => ⟨S_, .f32⟩
  | .hbm, ⟨44, _⟩ => ⟨S32768x2000, .f32⟩
  | .hbm, ⟨45, _⟩ => ⟨S32768x2000, .f32⟩
  | .hbm, ⟨46, _⟩ => ⟨S_, .f32⟩
  | .hbm, ⟨47, _⟩ => ⟨S32768x2000, .f32⟩
  | .hbm, ⟨48, _⟩ => ⟨S32768x2000, .i1⟩
  | .hbm, ⟨49, _⟩ => ⟨S_, .f32⟩
  | .hbm, ⟨50, _⟩ => ⟨S32768x2000, .f32⟩
  | .hbm, ⟨51, _⟩ => ⟨S32768x2000, .f32⟩
  | .hbm, ⟨52, _⟩ => ⟨S_, .f32⟩
  | .hbm, ⟨53, _⟩ => ⟨S_, .f32⟩
  | .hbm, ⟨54, _⟩ => ⟨S32768x2000, .f32⟩
  | .hbm, ⟨55, _⟩ => ⟨S32768x2000, .f32⟩
  | .hbm, ⟨56, _⟩ => ⟨S32768x2000, .f32⟩
  | .hbm, ⟨57, _⟩ => ⟨S32768x2000, .f32⟩
  | .hbm, ⟨58, _⟩ => ⟨S_, .f32⟩
  | .hbm, ⟨59, _⟩ => ⟨S32768, .f32⟩
  | .hbm, ⟨60, _⟩ => ⟨S32768x1, .f32⟩
  | .hbm, ⟨61, _⟩ => ⟨S_, .f32⟩
  | .hbm, ⟨62, _⟩ => ⟨S32768x1, .f32⟩
  | .hbm, ⟨63, _⟩ => ⟨S32768x1, .f32⟩
  | .hbm, ⟨64, _⟩ => ⟨S32768x2000, .f32⟩
  | .hbm, ⟨65, _⟩ => ⟨S32768x2000, .f32⟩
  | .hbm, ⟨66, _⟩ => ⟨S32768x512, .f32⟩
  | .hbm, ⟨67, _⟩ => ⟨S8x64x64x512, .f32⟩
  | .hbm, ⟨68, _⟩ => ⟨S8x512x64x64, .f32⟩
  | .hbm, ⟨69, _⟩ => ⟨S8x64x64x2000, .f32⟩
  | .hbm, ⟨70, _⟩ => ⟨S8x2000x64x64, .f32⟩
  | _, _ => ⟨S8x512x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_5 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_6 : Ref sig .tc := ⟨.hbm, 40, rfl⟩
abbrev main_v31 : Ref sig .tc := ⟨.hbm, 41, rfl⟩
abbrev main_v32 : Ref sig .tc := ⟨.hbm, 42, rfl⟩
abbrev main_cst_7 : Ref sig .tc := ⟨.hbm, 43, rfl⟩
abbrev main_v33 : Ref sig .tc := ⟨.hbm, 44, rfl⟩
abbrev main_v34 : Ref sig .tc := ⟨.hbm, 45, rfl⟩
abbrev main_cst_8 : Ref sig .tc := ⟨.hbm, 46, rfl⟩
abbrev main_v35 : Ref sig .tc := ⟨.hbm, 47, rfl⟩
abbrev main_v36 : Ref sig .tc := ⟨.hbm, 48, rfl⟩
abbrev main_cst_9 : Ref sig .tc := ⟨.hbm, 49, rfl⟩
abbrev main_v37 : Ref sig .tc := ⟨.hbm, 50, rfl⟩
abbrev main_v38 : Ref sig .tc := ⟨.hbm, 51, rfl⟩
abbrev main_cst_10 : Ref sig .tc := ⟨.hbm, 52, rfl⟩
abbrev main_call0_v0 : Ref sig .tc := ⟨.hbm, 53, rfl⟩
abbrev main_call0_v1 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_11 : Ref sig .tc := ⟨.hbm, 58, rfl⟩
abbrev main_v42 : Ref sig .tc := ⟨.hbm, 59, rfl⟩
abbrev main_v43 : Ref sig .tc := ⟨.hbm, 60, rfl⟩
abbrev main_cst_12 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩

abbrev nD : Nat := 1
abbrev τ : Topo := Topo.v7x

variable {F : FTy → Type} [FloatOps F]

class Facts₀ : Prop where
  transposes_S8x512x64x64_S8x64x64x512_0_2_3_1 : S8x512x64x64.Transposes [0, 2, 3, 1] S8x64x64x512
  shapeCasts_S8x64x64x512_S32768x512 : S8x64x64x512.ShapeCasts S32768x512
  reducesTo_S32768x512_S32768_d1 : S32768x512.ReducesTo [1] S32768
  h_S_ : 0 < S_.numel
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S32768x1_S32768x512_0_1 : S32768x1.BroadcastsInDim S32768x512 (![0, 1] : Fin 2 → Fin S32768x512.rank)
  reducesTo_S2000x512_S2000_d1 : S2000x512.ReducesTo [1] S2000
  bcast_S2000_S2000x1_0 : S2000.BroadcastsInDim S2000x1 (![0] : Fin 1 → Fin S2000x1.rank)
  bcast_S_S2000x1 : S_.BroadcastsInDim S2000x1 (![] : Fin 0 → Fin S2000x1.rank)
  bcast_S2000x1_S2000x512_0_1 : S2000x1.BroadcastsInDim S2000x512 (![0, 1] : Fin 2 → Fin S2000x512.rank)
  reducesTo_S32768x2000_S32768_d1 : S32768x2000.ReducesTo [1] S32768
  bcast_S_S32768 : S_.BroadcastsInDim S32768 (![] : Fin 0 → Fin S32768.rank)
  bcast_S32768x1_S32768x2000_0_1 : S32768x1.BroadcastsInDim S32768x2000 (![0, 1] : Fin 2 → Fin S32768x2000.rank)
  bcast_S_S32768x2000 : S_.BroadcastsInDim S32768x2000 (![] : Fin 0 → Fin S32768x2000.rank)
  shapeCasts_S32768x512_S8x64x64x512 : S32768x512.ShapeCasts S8x64x64x512
  transposes_S8x64x64x512_S8x512x64x64_0_3_1_2 : S8x64x64x512.Transposes [0, 3, 1, 2] S8x512x64x64
  shapeCasts_S32768x2000_S8x64x64x2000 : S32768x2000.ShapeCasts S8x64x64x2000
  transposes_S8x64x64x2000_S8x2000x64x64_0_3_1_2 : S8x64x64x2000.Transposes [0, 3, 1, 2] S8x2000x64x64
  dot_S32768x512_S2000x512_S32768x2000_1_1_0_0_n_n_wf : DotDims.WF S32768x512 S2000x512 S32768x2000 [1] [1] [0] [0] [] []
  dot_S2000x512_S2000x512_S2000x2000_1_1_0_0_n_n_wf : DotDims.WF S2000x512 S2000x512 S2000x2000 [1] [1] [0] [0] [] []
  dot_S32768x2000_S2000x512_S32768x512_1_0_0_1_n_n_wf : DotDims.WF S32768x2000 S2000x512 S32768x512 [1] [0] [0] [1] [] []

variable [Facts₀]

def dot_S32768x512_S2000x512_S32768x2000_1_1_0_0_n_n : DotDims S32768x512 S2000x512 S32768x2000 where
  lhsContracting := [1]
  rhsContracting := [1]
  lhsNonContracting := [0]
  rhsNonContracting := [0]
  lhsBatch := []
  rhsBatch := []
  wf := dot_S32768x512_S2000x512_S32768x2000_1_1_0_0_n_n_wf
def dot_S2000x512_S2000x512_S2000x2000_1_1_0_0_n_n : DotDims S2000x512 S2000x512 S2000x2000 where
  lhsContracting := [1]
  rhsContracting := [1]
  lhsNonContracting := [0]
  rhsNonContracting := [0]
  lhsBatch := []
  rhsBatch := []
  wf := dot_S2000x512_S2000x512_S2000x2000_1_1_0_0_n_n_wf
def dot_S32768x2000_S2000x512_S32768x512_1_0_0_1_n_n : DotDims S32768x2000 S2000x512 S32768x512 where
  lhsContracting := [1]
  rhsContracting := [0]
  lhsNonContracting := [0]
  rhsNonContracting := [1]
  lhsBatch := []
  rhsBatch := []
  wf := dot_S32768x2000_S2000x512_S32768x512_1_0_0_1_n_n_wf

class Facts : Prop extends Facts₀ where

variable [Facts]
-- ==== Proof.K.Reg0.lean ====
/-
  The normalising kernel as one pipeline region, at any contents V of the core's buffers when the region is entered:
  what its one grid point finds in the input window's buffer (the whole slot array), what it leaves in the output
  window's buffer (the body's stored value of that block), the body's triple, and the pipeline's proof data with the
  obligation the launch asks of the body at every point.
-/
import proofs.«131549_j58806692217158_1_alg».proof.Proof.Gen.Kernel.Launch
import proofs.«131549_j58806692217158_1_alg».proof.Proof.Gen.Kernel.Skeleton
import proofs.«131549_j58806692217158_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's buffer holds its block at every point, for any proof data whose array is the entry contents
    and whose body leaves the block where it was: the window is fetched whole and never idles. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangle of a [2000, 512] staging buffer. -/
abbrev r0_0 : Rect S2000x512 := Rect.unit (s := S2000x512) ![0, 0] S2000x512.size inb_S2000x512_S2000x512_0_0

/-- The output window's buffer after the body, from the input window's block: its one store. -/
def out0_1 (x0 : Vec F S2000x512 .f32) : Vec F S2000x512 .bf16 :=
  View.canon [⟨r0_0, k0_pay1 (View.ld x0 r0_0)⟩]

/-- The one store covers the buffer and reads the whole input block: the buffer ends at the body's value of the block. -/
theorem out0_1_eq (x0 : Vec F S2000x512 .f32) : out0_1 x0 = k0_pay1 x0 := by
  have hz : (![0, 0] : Fin S2000x512.rank → Nat) = fun _ => 0 := funext fun a => by fin_cases a <;> rfl
  unfold out0_1
  rw [View.canon_unit_zero hz]
  simp only [View.ld_unit_zero (S := S2000x512) hz]

/-- The one store is the whole buffer, so every index of the buffer lies in it. -/
theorem cover0_1 (p0 : Vec F S2000x512 .bf16) (y : S2000x512.Idx) :
    ∃ pc ∈ ([⟨r0_0, p0⟩] : List (View.Piece (Elt F) S2000x512 .bf16)), y ∈ pc.1.set :=
  View.cover_of_tiled [⟨r0_0, p0⟩] S2000x512.size (by rfl) y

set_option maxHeartbeats 1000000 in
/-- The body on whole buffers, the input's at contents x0 and the output's at anything, runs to the continuation
    holding the input's as it was and the output's at the stored value of x0. -/
theorem sound_kernel0 (c : Dev nD) (E : Set ℕ) (i : grid0.Coords) (arg0 : Memref sig .tc .vmem S2000x512 .f32) (harg0 : arg0.IsWhole) (arg1 : Memref sig .tc .vmem S2000x512 .bf16) (harg1 : arg1.IsWhole)
    (x0 : Vec F S2000x512 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out0_1 x0)) -∗ K ⟨⟩))
      ⊢ wp frame (wpE (defs₀ (F := F)) Variants.none c none) E (cc0__normalize_kernel i arg0 harg0 arg1 harg1) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of the pipeline: arrays as the region finds them; after the body the input's buffer at its block and
    the output's at the body's value of it; the invariant the scoped rest and the generator register; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- The input window's buffer holds its block at every point. -/
theorem before0_0 (c : Dev nD) (t : Fin cfg0.N) (d) : (dat0 V c).before 0 t d = iblk0 V c 0 t :=
  before0_0_of V (dat0 V c) (A_eq0 V c 0) (after0_0 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's buffer holds its block, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The launch's obligation on the body, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
/-
  The alignment kernel as one pipeline region, at any contents V of the core's buffers when the region is entered. Its
  two input windows read ONE array, the normalised slots: a block of 400 rows at each of the five points, and the whole
  array, fetched once. The core holds that array's two windows at the two halves of its full share.
-/
import proofs.«131549_j58806692217158_1_alg».proof.Proof.Gen.Kernel.Launch
import proofs.«131549_j58806692217158_1_alg».proof.Proof.Gen.Kernel.Skeleton
import proofs.«131549_j58806692217158_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for any proof data on the region's entry
    contents whose body leaves that block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same of input window 1: fetched at the first point only, its block is the whole array at every point, so the
    buffer still holds it at the later ones. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S400x512 := Rect.unit (s := S400x512) ![0, 0] S400x512.size inb_S400x512_S400x512_0_0
abbrev r1_1 : Rect S2000x512 := Rect.unit (s := S2000x512) ![0, 0] S2000x512.size inb_S2000x512_S2000x512_0_0
abbrev r1_2 : Rect S400x2000 := Rect.unit (s := S400x2000) ![0, 0] S400x2000.size inb_S400x2000_S400x2000_0_0

/-- The output window's buffer after the body, from the two input blocks: its one store. -/
def out1_2 (x0 : Vec F S400x512 .bf16) (x1 : Vec F S2000x512 .bf16) : Vec F S400x2000 .f32 :=
  View.canon [⟨r1_2, k1_pay1 (View.ld x0 r1_0) (View.ld x1 r1_1)⟩]

/-- The rectangles of the body's accesses all start at the origin. -/
theorem origin1 : (![0, 0] : Fin 2 → Nat) = fun _ => 0 := funext fun a => by fin_cases a <;> rfl

/-- One store over the whole buffer, of a payload of whole-buffer loads, leaves the payload of the buffers themselves. -/
theorem out1_2_eq (x0 : Vec F S400x512 .bf16) (x1 : Vec F S2000x512 .bf16) : out1_2 x0 x1 = k1_pay1 x0 x1 := by
  unfold out1_2
  rw [View.canon_unit_zero origin1]
  simp only [View.ld_unit_zero (S := S400x512) origin1, View.ld_unit_zero (S := S2000x512) origin1]

/-- The one store covers the output buffer. -/
theorem cover1_2 (p0 : Vec F S400x2000 .f32) (y : S400x2000.Idx) :
    ∃ pc ∈ ([⟨r1_2, p0⟩] : List (View.Piece (Elt F) S400x2000 .f32)), y ∈ pc.1.set :=
  View.cover_of_tiled [⟨r1_2, p0⟩] S400x2000.size (by rfl) y

set_option maxHeartbeats 1000000 in
/-- The body on whole staging memrefs, the two inputs' at contents x0 and x1 and the output's at anything, runs to the
    continuation holding the inputs' as they were and the output's at out1_2 of them. -/
theorem sound_kernel1 (c : Dev nD) (E : Set ℕ) (i : grid1.Coords) (arg1 : Memref sig .tc .vmem S400x512 .bf16) (harg1 : arg1.IsWhole) (arg2 : Memref sig .tc .vmem S2000x512 .bf16) (harg2 : arg2.IsWhole) (arg3 : Memref sig .tc .vmem S400x2000 .f32) (harg3 : arg3.IsWhole)
    (x0 : Vec F S400x512 .bf16) (x1 : Vec F S2000x512 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__mem_align_kernel i arg1 harg1 arg2 harg2 arg3 harg3) K := by
  simp only [cc1__mem_align_kernel_eq_skeleton]; unfold cc1__mem_align_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of the pipeline; the two windows on the slots' array hold it at the two halves of the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch's obligation on the body, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2.lean ====
/-
  The main kernel as one pipeline region, at any contents V of the core's buffers when the region is entered: a block
  of 512 pixel rows at each of the 64 points, the normalised slots fetched once, and two output windows, the output rows
  and the attention rows of the block.
-/
import proofs.«131549_j58806692217158_1_alg».proof.Proof.Gen.Kernel.Launch
import proofs.«131549_j58806692217158_1_alg».proof.Proof.Gen.Kernel.Skeleton
import proofs.«131549_j58806692217158_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The pixel-rows window's current buffer holds its block at every point, for any proof data whose array is V's and
    whose body leaves the block in place: the window is fetched at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The slots' window's buffer holds the whole slots' array at every point, though it is fetched at the first point only:
    its block index never moves, so what the body left in place at the point before is still this point's block. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S512x512 := Rect.unit (s := S512x512) ![0, 0] S512x512.size inb_S512x512_S512x512_0_0
abbrev r2_1 : Rect S2000x512 := Rect.unit (s := S2000x512) ![0, 0] S2000x512.size inb_S2000x512_S2000x512_0_0
abbrev r2_3 : Rect S512x2000 := Rect.unit (s := S512x2000) ![0, 0] S512x2000.size inb_S512x2000_S512x2000_0_0

/-- The output-rows window's buffer after the body, from the two input blocks: its one store. -/
def out2_2 (x0 : Vec F S512x512 .f32) (x1 : Vec F S2000x512 .bf16) : Vec F S512x512 .f32 :=
  View.canon [⟨r2_0, k2_pay1 (k2_pay2 (View.ld x1 r2_1)) (k2_pay3 (View.ld x0 r2_0) (View.ld x1 r2_1))⟩]
/-- The attention-rows window's buffer after the body: its one store. -/
def out2_3 (x0 : Vec F S512x512 .f32) (x1 : Vec F S2000x512 .bf16) : Vec F S512x2000 .f32 :=
  View.canon [⟨r2_3, k2_pay3 (View.ld x0 r2_0) (View.ld x1 r2_1)⟩]

/-- The offsets of every access of the body are zero. -/
theorem zeros2 : (![0, 0] : Fin 2 → Nat) = fun _ => 0 := funext fun a => by fin_cases a <;> rfl

/-- Every access is of a whole buffer, so the one store of each output window leaves its payload, over the loaded blocks
    themselves. -/
theorem out2_2_eq (x0 : Vec F S512x512 .f32) (x1 : Vec F S2000x512 .bf16) :
    out2_2 x0 x1 = k2_pay1 (k2_pay2 x1) (k2_pay3 x0 x1) := by
  unfold out2_2
  rw [View.canon_unit_zero zeros2]
  simp only [View.ld_unit_zero (S := S512x512) zeros2, View.ld_unit_zero (S := S2000x512) zeros2]
theorem out2_3_eq (x0 : Vec F S512x512 .f32) (x1 : Vec F S2000x512 .bf16) : out2_3 x0 x1 = k2_pay3 x0 x1 := by
  unfold out2_3
  rw [View.canon_unit_zero zeros2]
  simp only [View.ld_unit_zero (S := S512x512) zeros2, View.ld_unit_zero (S := S2000x512) zeros2]

/-- The one store of the output-rows window covers its buffer. -/
theorem cover2_2 (p0 : Vec F S512x512 .f32) (y : S512x512.Idx) :
    ∃ pc ∈ ([⟨r2_0, p0⟩] : List (View.Piece (Elt F) S512x512 .f32)), y ∈ pc.1.set :=
  ⟨_, List.mem_singleton_self _, View.mem_set_unit_zero zeros2 inb_S512x512_S512x512_0_0 y⟩
/-- The one store of the attention-rows window covers its buffer. -/
theorem cover2_3 (p0 : Vec F S512x2000 .f32) (y : S512x2000.Idx) :
    ∃ pc ∈ ([⟨r2_3, p0⟩] : List (View.Piece (Elt F) S512x2000 .f32)), y ∈ pc.1.set :=
  ⟨_, List.mem_singleton_self _, View.mem_set_unit_zero zeros2 inb_S512x2000_S512x2000_0_0 y⟩

set_option maxHeartbeats 1000000 in
/-- The body on whole buffers, the two inputs' at read contents x0, x1 and the two outputs' at anything, runs to the
    continuation holding the inputs' as they were and each output's at what its one store leaves. -/
theorem sound_kernel2 (c : Dev nD) (E : Set ℕ) (i : grid2.Coords)
    (arg1 : Memref sig .tc .vmem S512x512 .f32) (harg1 : arg1.IsWhole) (arg2 : Memref sig .tc .vmem S2000x512 .bf16) (harg2 : arg2.IsWhole)
    (arg3 : Memref sig .tc .vmem S512x512 .f32) (harg3 : arg3.IsWhole) (arg4 : Memref sig .tc .vmem S512x2000 .f32) (harg4 : arg4.IsWhole)
    (x0 : Vec F S512x512 .f32) (x1 : Vec F S2000x512 .bf16) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out2_2 x0 x1) ∗ owns (c : Thread nD τ) arg4 fullShare (out2_3 x0 x1)) -∗ K ⟨⟩))
      ⊢ wp frame (wpE (defs₀ (F := F)) Variants.none c none) E (cc2__main_kernel i arg1 harg1 arg2 harg2 arg3 harg3 arg4 harg4) K := by
  simp only [cc2__main_kernel_eq_skeleton]; unfold cc2__main_kernel_skel
  simp only [k2_part1_eq_skeleton]; unfold k2_part1_skel
  unfold owns
  iintro ⟨⟨%f0, %hf0, H0⟩, ⟨%f1, %hf1, H1⟩, ⟨%d2, %f2, -, H2⟩, ⟨%d3, %f3, -, H3⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover2_2 _)
  iexists _; isplitr
  swap; · iexact H3
  ipureintro
  exact View.read_writes_eq_canon _ _ _ (cover2_3 _)

/-- The proof data of the pipeline. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
    | ⟨3, _⟩ => out2_3 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]
theorem after2_3 (c : Dev nD) (t : Fin cfg2.N) : (dat2 V c).after 3 t = out2_3 (iblk2 V c 0 t) (iblk2 V c 1 t) := by dsimp only [dat2]

/-- Each input window's current buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the body's triple applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch's obligation on the body, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Shared1.lean ====
/-
  The alignment kernel reads the normalised slots through two windows. The core's one full holding of that array is
  dealt to the two windows as the two halves of the full share when the region is entered, and the halves are put
  together again when it is left; the result array is held whole throughout.
-/
import proofs.«131549_j58806692217158_1_alg».proof.Proof.K.Reg1
import Idealize.ShloMosaic.Lib.Pipeline.Kit
import Idealize.ShloMosaic.Lib.Pipeline.Regions

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)
open Cert.Kernel.Gen

variable {F : FTy → Type} [FloatOps F]

local notation "𝕄" => MT nD τ sig Unit (Elt F) ℕ (UR sig nD τ) ℕ

variable (VV : (c : Dev nD) → (b : Ref sig .tc) → Buf (Elt F) ((c : Thread nD τ).loc b))

/-- The distinct buffers behind region 1's three windows: the slots' array and the result array. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v2) ↦{fullShare} V main_v2) ∗ (((c : Thread nD τ).loc main_v3) ↦{fullShare} V main_v3)) := by
  unfold Pipeline.arrBufs
  exact bigSep_eq_bigSepL_of_eq [main_v2, main_v3] (by decide) (by decide) _

/-- The three windows' holdings, one by one: the slots' array at the left half, again at the right half, the result
    array whole. -/
theorem arrays1_eq (c : Dev nD) (G : (w : Fin cfg1.W) → Buf (Elt F) ((cfg1.win w).arr.view.loc (c : Thread nD τ))) :
    ((dat1 VV c).arrays G : sProp 𝕄)
      = iprop((((c : Thread nD τ).loc main_v2) ↦{fullShare.left} G 0) ∗ (((c : Thread nD τ).loc main_v2) ↦{fullShare.right} G 1)
          ∗ (((c : Thread nD τ).loc main_v3) ↦{fullShare} G 2)) := by
  unfold Pipeline.Dat.arrays
  rw [bigSep_W1, (arr_whole1 0).set_eq_univ, (arr_whole1 2).set_eq_univ]
  rfl

/-- ENTRY: the two buffers whole at contents V make the three windows' holdings at V. -/
theorem arrays1_of_bufs (c : Dev nD) (V : (b : Ref sig .tc) → Buf (Elt F) ((c : Thread nD τ).loc b))
    (G : (w : Fin cfg1.W) → Buf (Elt F) ((cfg1.win w).arr.view.loc (c : Thread nD τ)))
    (hG : ∀ w, G w = V (Pipeline.arrRef spec1 w)) :
    (Pipeline.arrBufs (Ix := Unit) (Name := ℕ) (U := UR sig nD τ) (Lvl := ℕ) spec1 c V : sProp 𝕄) ⊢ (dat1 VV c).arrays G := by
  rw [arrBufs1_eq, arrays1_eq, hG 0, hG 1, hG 2]
  iintro ⟨H2, H3⟩
  ihave H := (pointsTo_share (PosShare.mem_left_op_right fullShare)).1 $$ H2
  icases H with ⟨Ha, Hb⟩
  isplitl [Ha]; · iexact Ha
  isplitl [Hb]; · iexact Hb
  iexact H3

/-- EXIT: the three windows' holdings at contents that two buffers' contents V' explain make those buffers whole at V'. -/
theorem bufs_of_arrays1 (c : Dev nD) (V' : (b : Ref sig .tc) → Buf (Elt F) ((c : Thread nD τ).loc b))
    (G : (w : Fin cfg1.W) → Buf (Elt F) ((cfg1.win w).arr.view.loc (c : Thread nD τ)))
    (hG : ∀ w, G w = V' (Pipeline.arrRef spec1 w)) :
    ((dat1 VV c).arrays G : sProp 𝕄) ⊢ Pipeline.arrBufs (Ix := Unit) (Name := ℕ) (U := UR sig nD τ) (Lvl := ℕ) spec1 c V' := by
  rw [arrBufs1_eq, arrays1_eq, hG 0, hG 1, hG 2]
  iintro ⟨Ha, Hb, H3⟩
  isplitl [Ha Hb]
  · iapply (pointsTo_share (PosShare.mem_left_op_right fullShare)).2
    isplitl [Ha]; · iexact Ha
    iexact Hb
  iexact H3

end Cert.Kernel.Hand

end
-- ==== Proof.K.Run.lean ====
/-
  The run of the whole program on a core: the contents of every buffer outside the kernels' scratch at each boundary
  between two items of the program — the launch memory, then the two re-layouts of the pixel features, then each of
  the three kernel regions leaving its result array at what its write-backs fold to and every other buffer as it was,
  then the four re-layouts of the results — and the statement that every fair execution ends with exactly those
  contents. Each region is entered from the contents the item before it left; no item writes an argument.
-/
import proofs.«131549_j58806692217158_1_alg».proof.Proof.K.Reg0
import proofs.«131549_j58806692217158_1_alg».proof.Proof.K.Reg1
import proofs.«131549_j58806692217158_1_alg».proof.Proof.K.Reg2
import proofs.«131549_j58806692217158_1_alg».proof.Proof.K.Shared1
import proofs.«131549_j58806692217158_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the two re-layouts of the pixel features (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: the normalised slots' array at what the region's write-back leaves, the rest as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: the alignment array at what the region's write-backs leave, the rest as entered (the two
    input windows read one array, which stays as entered). -/
def W3 (c : Dev nD) : Valuation τ sig (Elt F) :=
  Function.update (W2 m ρ c) (Proc.devRef .tc main_v3) ((dat1 (V2 m ρ) c).arrAt 2 cfg1.N)
abbrev V3 : (c : Dev nD) → (b : Ref sig .tc) → Buf (Elt F) ((c : Thread nD τ).loc b) := fun c b => W3 m ρ c b
theorem W3_main_v3 (c : Dev nD) : W3 m ρ c (Proc.devRef .tc main_v3) = (dat1 (V2 m ρ) c).arrAt 2 cfg1.N := by
  unfold W3; exact Function.update_self ..
theorem W3_of_ne (c : Dev nD) (b : Ref sig .tc) (hb : b ≠ main_v3) :
    W3 m ρ c (Proc.devRef .tc b) = W2 m ρ c (Proc.devRef .tc b) := by
  unfold W3; exact Function.update_of_ne (StableHlo.devRef_ne_of_ne hb) ..
theorem hF1 (c : Dev nD) (w : Fin cfg1.W) : (dat1 (V2 m ρ) c).arrAt w cfg1.N = V3 m ρ c (Pipeline.arrRef spec1 w) := by
  match w with
  | ⟨0, _⟩ => exact (((dat1 (V2 m ρ) c).arrAt_in 0 rfl _).trans (A_eq1 (V2 m ρ) c 0)).trans (W3_of_ne m ρ c main_v2 (by decide)).symm
  | ⟨1, _⟩ => exact (((dat1 (V2 m ρ) c).arrAt_in 1 rfl _).trans (A_eq1 (V2 m ρ) c 1)).trans (W3_of_ne m ρ c main_v2 (by decide)).symm
  | ⟨2, _⟩ => exact (W3_main_v3 m ρ c).symm
theorem hrest1 (c : Dev nD) : ∀ b, b ∉ Finset.univ.image (Pipeline.arrRef spec1) → V3 m ρ c b = V2 m ρ c b :=
  fun b hb => W3_of_ne m ρ c b fun e => hb (Finset.mem_image.mpr ⟨2, Finset.mem_univ _, e.symm⟩)

/-- At region 2's exit: the output-rows and attention-rows arrays at what the region's write-backs leave. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- After the four re-layouts of the results: the contents the program ends with. -/
abbrev W5 : Dev nD → Valuation τ sig (Elt F) := fun c => StableHlo.after hostOps3 (W4 m ρ c)

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A stretch of host operations as an item, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed. -/
abbrev Tₙ (c : Dev nD) : sProp 𝕄 := iprop(StableHlo.held (c : Thread nD τ) (Pipeline.ucRefs τ sig) (W5 m ρ c) ∗ ∃ r, prngReg c r)

/-! ## The regions as items -/

set_option backward.isDefEq.respectTransparency.types false in
/-- REGION 0 over the thread state: entered from every unscoped buffer at `W1`, left at `W2`. Its arrays are split
    out of the unscoped buffers and put back at the exit contents; the generator register goes into the region's
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W2`, left at `W3`. Its arrays are split
    out of the unscoped buffers and put back at the exit contents; the generator register goes into the region's
    invariant and comes out; nothing is owed; the kernel has no semaphore of its own. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit : (unscopedBufs c (V2 m ρ c) : sProp 𝕄)
        ⊢ iprop((pdats m ρ 1 c).arrays ((pdats m ρ 1 c).arrAt · 0) ∗ Pipeline.unscopedRest (Ix := Unit) (Name := ℕ) (U := UR sig nD τ) (Lvl := ℕ) spec1 c (V2 m ρ c)) := by
      rw [Pipeline.unscopedBufs_split₀ (cfgs := cfgs) (p := 1) winFacts₀1.arr_unscoped c (V2 m ρ c)]
      exact sep_mono (arrays1_of_bufs (V2 m ρ) c (V2 m ρ c) _ fun _ => rfl) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest (Ix := Unit) (Name := ℕ) (U := UR sig nD τ) (Lvl := ℕ) spec1 c (V2 m ρ c))
        ⊢ (unscopedBufs c (V3 m ρ c) : sProp 𝕄) := by
      rw [Pipeline.unscopedBufs_split₀ (cfgs := cfgs) (p := 1) winFacts₀1.arr_unscoped c (V3 m ρ c)]
      refine sep_mono (bufs_of_arrays1 (V2 m ρ) c (V3 m ρ c) _ (hF1 m ρ c)) (Entails.of_eq ?_)
      unfold Pipeline.unscopedRest
      exact bigSep_congr fun b hb => by rw [hrest1 m ρ c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W3`, left at `W4`. Its arrays are split
    out of the unscoped buffers and put back at the exit contents; the generator register goes into the region's
    invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as items, and the launch -/

/-- The program's five items in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .host (hseg hostOps3 hostOps3_sub hostOps3_fresh (W4 m ρ)) ]
theorem main_run (c : Dev nD) : main (F := F) c = Pipeline.Seg.run (segs m ρ) := (main_chain c).trans (by chain_rfl)

set_option backward.isDefEq.respectTransparency.types false in
/-- Every weakly fair execution of the program from memory `m` with zero counters terminates, nothing faulting, and
    every final state holds every buffer outside the kernels' scratch at the last boundary's contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-! ## The arguments end as launched

No stretch of host operations writes an argument, region 0 only reads the slots through an input window, and the other
regions do not touch the arguments: reading the last boundary's contents at an argument walks back to the launch memory. -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps3 _ hostOps3_writes (by decide)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

/-- The slots' array stays as launched up to the boundary after region 0, whose input window only reads it. -/
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := (W2_arr m ρ c 0).trans (((dat0 (V1 m ρ) c).arrAt_in 0 rfl _).trans (A_eq0 (V1 m ρ) c 0))
    _ = W0 m ρ c (Proc.devRef .tc main_arg1) := StableHlo.after_of_writes_sub hostOps0 _ hostOps0_writes (by decide)
    _ = m ((c : Thread nD τ).loc main_arg1) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps3 _ hostOps3_writes (by decide)
    _ = W3 m ρ c (Proc.devRef .tc main_arg1) := W4_of_ne m ρ c main_arg1 (by decide)
    _ = W2 m ρ c (Proc.devRef .tc main_arg1) := W3_of_ne m ρ c main_arg1 (by decide)
    _ = m ((c : Thread nD τ).loc main_arg1) := W2_main_arg1 m ρ c

/-- The frame: every weakly fair execution terminates, nothing faulting, with both arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W5_main_arg0 m ρ c),
     (h c _ (mem_uc main_arg1 (by decide))).trans (W5_main_arg1 m ρ c)⟩) (run_all m ρ)

end Cert.Kernel.Hand

end
-- ==== Proof.KI.Reg0.lean ====
/-
  The normalising kernel as one pipeline region, at any contents V of the core's buffers when the region is entered:
  what its one grid point finds in the input window's buffer (the whole slot array), what it leaves in the output
  window's buffer (the body's stored value of that block), the body's triple, and the pipeline's proof data with the
  obligation the launch asks of the body at every point.
-/
import proofs.«131549_j58806692217158_1_alg».proof.Proof.Gen.KernelIdeal.Launch
import proofs.«131549_j58806692217158_1_alg».proof.Proof.Gen.KernelIdeal.Skeleton
import proofs.«131549_j58806692217158_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's buffer holds its block at every point, for any proof data whose array is the entry contents
    and whose body leaves the block where it was: the window is fetched whole and never idles. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangle of a [2000, 512] staging buffer. -/
abbrev r0_0 : Rect S2000x512 := Rect.unit (s := S2000x512) ![0, 0] S2000x512.size inb_S2000x512_S2000x512_0_0

/-- The output window's buffer after the body, from the input window's block: its one store. -/
def out0_1 (x0 : Vec F S2000x512 .f32) : Vec F S2000x512 .bf16 :=
  View.canon [⟨r0_0, k0_pay1 (View.ld x0 r0_0)⟩]

/-- The one store covers the buffer and reads the whole input block: the buffer ends at the body's value of the block. -/
theorem out0_1_eq (x0 : Vec F S2000x512 .f32) : out0_1 x0 = k0_pay1 x0 := by
  have hz : (![0, 0] : Fin S2000x512.rank → Nat) = fun _ => 0 := funext fun a => by fin_cases a <;> rfl
  unfold out0_1
  rw [View.canon_unit_zero hz]
  simp only [View.ld_unit_zero (S := S2000x512) hz]

/-- The one store is the whole buffer, so every index of the buffer lies in it. -/
theorem cover0_1 (p0 : Vec F S2000x512 .bf16) (y : S2000x512.Idx) :
    ∃ pc ∈ ([⟨r0_0, p0⟩] : List (View.Piece (Elt F) S2000x512 .bf16)), y ∈ pc.1.set :=
  View.cover_of_tiled [⟨r0_0, p0⟩] S2000x512.size (by rfl) y

set_option maxHeartbeats 1000000 in
/-- The body on whole buffers, the input's at contents x0 and the output's at anything, runs to the continuation
    holding the input's as it was and the output's at the stored value of x0. -/
theorem sound_kernel0 (c : Dev nD) (E : Set ℕ) (i : grid0.Coords) (arg0 : Memref sig .tc .vmem S2000x512 .f32) (harg0 : arg0.IsWhole) (arg1 : Memref sig .tc .vmem S2000x512 .bf16) (harg1 : arg1.IsWhole)
    (x0 : Vec F S2000x512 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out0_1 x0)) -∗ K ⟨⟩))
      ⊢ wp frame (wpE (defs₀ (F := F)) Variants.none c none) E (cc0__normalize_kernel i arg0 harg0 arg1 harg1) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of the pipeline: arrays as the region finds them; after the body the input's buffer at its block and
    the output's at the body's value of it; the invariant the scoped rest and the generator register; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- The input window's buffer holds its block at every point. -/
theorem before0_0 (c : Dev nD) (t : Fin cfg0.N) (d) : (dat0 V c).before 0 t d = iblk0 V c 0 t :=
  before0_0_of V (dat0 V c) (A_eq0 V c 0) (after0_0 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's buffer holds its block, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The launch's obligation on the body, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/-
  The alignment kernel as one pipeline region, at any contents V of the core's buffers when the region is entered. Its
  two input windows read ONE array, the normalised slots: a block of 400 rows at each of the five points, and the whole
  array, fetched once. The core holds that array's two windows at the two halves of its full share.
-/
import proofs.«131549_j58806692217158_1_alg».proof.Proof.Gen.KernelIdeal.Launch
import proofs.«131549_j58806692217158_1_alg».proof.Proof.Gen.KernelIdeal.Skeleton
import proofs.«131549_j58806692217158_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for any proof data on the region's entry
    contents whose body leaves that block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same of input window 1: fetched at the first point only, its block is the whole array at every point, so the
    buffer still holds it at the later ones. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S400x512 := Rect.unit (s := S400x512) ![0, 0] S400x512.size inb_S400x512_S400x512_0_0
abbrev r1_1 : Rect S2000x512 := Rect.unit (s := S2000x512) ![0, 0] S2000x512.size inb_S2000x512_S2000x512_0_0
abbrev r1_2 : Rect S400x2000 := Rect.unit (s := S400x2000) ![0, 0] S400x2000.size inb_S400x2000_S400x2000_0_0

/-- The output window's buffer after the body, from the two input blocks: its one store. -/
def out1_2 (x0 : Vec F S400x512 .bf16) (x1 : Vec F S2000x512 .bf16) : Vec F S400x2000 .f32 :=
  View.canon [⟨r1_2, k1_pay1 (View.ld x0 r1_0) (View.ld x1 r1_1)⟩]

/-- The rectangles of the body's accesses all start at the origin. -/
theorem origin1 : (![0, 0] : Fin 2 → Nat) = fun _ => 0 := funext fun a => by fin_cases a <;> rfl

/-- One store over the whole buffer, of a payload of whole-buffer loads, leaves the payload of the buffers themselves. -/
theorem out1_2_eq (x0 : Vec F S400x512 .bf16) (x1 : Vec F S2000x512 .bf16) : out1_2 x0 x1 = k1_pay1 x0 x1 := by
  unfold out1_2
  rw [View.canon_unit_zero origin1]
  simp only [View.ld_unit_zero (S := S400x512) origin1, View.ld_unit_zero (S := S2000x512) origin1]

/-- The one store covers the output buffer. -/
theorem cover1_2 (p0 : Vec F S400x2000 .f32) (y : S400x2000.Idx) :
    ∃ pc ∈ ([⟨r1_2, p0⟩] : List (View.Piece (Elt F) S400x2000 .f32)), y ∈ pc.1.set :=
  View.cover_of_tiled [⟨r1_2, p0⟩] S400x2000.size (by rfl) y

set_option maxHeartbeats 1000000 in
/-- The body on whole staging memrefs, the two inputs' at contents x0 and x1 and the output's at anything, runs to the
    continuation holding the inputs' as they were and the output's at out1_2 of them. -/
theorem sound_kernel1 (c : Dev nD) (E : Set ℕ) (i : grid1.Coords) (arg1 : Memref sig .tc .vmem S400x512 .bf16) (harg1 : arg1.IsWhole) (arg2 : Memref sig .tc .vmem S2000x512 .bf16) (harg2 : arg2.IsWhole) (arg3 : Memref sig .tc .vmem S400x2000 .f32) (harg3 : arg3.IsWhole)
    (x0 : Vec F S400x512 .bf16) (x1 : Vec F S2000x512 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__mem_align_kernel i arg1 harg1 arg2 harg2 arg3 harg3) K := by
  simp only [cc1__mem_align_kernel_eq_skeleton]; unfold cc1__mem_align_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of the pipeline; the two windows on the slots' array hold it at the two halves of the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch's obligation on the body, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
/-
  The main kernel as one pipeline region, at any contents V of the core's buffers when the region is entered: a block
  of 512 pixel rows at each of the 64 points, the normalised slots fetched once, and two output windows, the output rows
  and the attention rows of the block.
-/
import proofs.«131549_j58806692217158_1_alg».proof.Proof.Gen.KernelIdeal.Launch
import proofs.«131549_j58806692217158_1_alg».proof.Proof.Gen.KernelIdeal.Skeleton
import proofs.«131549_j58806692217158_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The pixel-rows window's current buffer holds its block at every point, for any proof data whose array is V's and
    whose body leaves the block in place: the window is fetched at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The slots' window's buffer holds the whole slots' array at every point, though it is fetched at the first point only:
    its block index never moves, so what the body left in place at the point before is still this point's block. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S512x512 := Rect.unit (s := S512x512) ![0, 0] S512x512.size inb_S512x512_S512x512_0_0
abbrev r2_1 : Rect S2000x512 := Rect.unit (s := S2000x512) ![0, 0] S2000x512.size inb_S2000x512_S2000x512_0_0
abbrev r2_3 : Rect S512x2000 := Rect.unit (s := S512x2000) ![0, 0] S512x2000.size inb_S512x2000_S512x2000_0_0

/-- The output-rows window's buffer after the body, from the two input blocks: its one store. -/
def out2_2 (x0 : Vec F S512x512 .f32) (x1 : Vec F S2000x512 .bf16) : Vec F S512x512 .f32 :=
  View.canon [⟨r2_0, k2_pay1 (k2_pay2 (View.ld x1 r2_1)) (k2_pay3 (View.ld x0 r2_0) (View.ld x1 r2_1))⟩]
/-- The attention-rows window's buffer after the body: its one store. -/
def out2_3 (x0 : Vec F S512x512 .f32) (x1 : Vec F S2000x512 .bf16) : Vec F S512x2000 .f32 :=
  View.canon [⟨r2_3, k2_pay3 (View.ld x0 r2_0) (View.ld x1 r2_1)⟩]

/-- The offsets of every access of the body are zero. -/
theorem zeros2 : (![0, 0] : Fin 2 → Nat) = fun _ => 0 := funext fun a => by fin_cases a <;> rfl

/-- Every access is of a whole buffer, so the one store of each output window leaves its payload, over the loaded blocks
    themselves. -/
theorem out2_2_eq (x0 : Vec F S512x512 .f32) (x1 : Vec F S2000x512 .bf16) :
    out2_2 x0 x1 = k2_pay1 (k2_pay2 x1) (k2_pay3 x0 x1) := by
  unfold out2_2
  rw [View.canon_unit_zero zeros2]
  simp only [View.ld_unit_zero (S := S512x512) zeros2, View.ld_unit_zero (S := S2000x512) zeros2]
theorem out2_3_eq (x0 : Vec F S512x512 .f32) (x1 : Vec F S2000x512 .bf16) : out2_3 x0 x1 = k2_pay3 x0 x1 := by
  unfold out2_3
  rw [View.canon_unit_zero zeros2]
  simp only [View.ld_unit_zero (S := S512x512) zeros2, View.ld_unit_zero (S := S2000x512) zeros2]

/-- The one store of the output-rows window covers its buffer. -/
theorem cover2_2 (p0 : Vec F S512x512 .f32) (y : S512x512.Idx) :
    ∃ pc ∈ ([⟨r2_0, p0⟩] : List (View.Piece (Elt F) S512x512 .f32)), y ∈ pc.1.set :=
  ⟨_, List.mem_singleton_self _, View.mem_set_unit_zero zeros2 inb_S512x512_S512x512_0_0 y⟩
/-- The one store of the attention-rows window covers its buffer. -/
theorem cover2_3 (p0 : Vec F S512x2000 .f32) (y : S512x2000.Idx) :
    ∃ pc ∈ ([⟨r2_3, p0⟩] : List (View.Piece (Elt F) S512x2000 .f32)), y ∈ pc.1.set :=
  ⟨_, List.mem_singleton_self _, View.mem_set_unit_zero zeros2 inb_S512x2000_S512x2000_0_0 y⟩

set_option maxHeartbeats 1000000 in
/-- The body on whole buffers, the two inputs' at read contents x0, x1 and the two outputs' at anything, runs to the
    continuation holding the inputs' as they were and each output's at what its one store leaves. -/
theorem sound_kernel2 (c : Dev nD) (E : Set ℕ) (i : grid2.Coords)
    (arg1 : Memref sig .tc .vmem S512x512 .f32) (harg1 : arg1.IsWhole) (arg2 : Memref sig .tc .vmem S2000x512 .bf16) (harg2 : arg2.IsWhole)
    (arg3 : Memref sig .tc .vmem S512x512 .f32) (harg3 : arg3.IsWhole) (arg4 : Memref sig .tc .vmem S512x2000 .f32) (harg4 : arg4.IsWhole)
    (x0 : Vec F S512x512 .f32) (x1 : Vec F S2000x512 .bf16) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out2_2 x0 x1) ∗ owns (c : Thread nD τ) arg4 fullShare (out2_3 x0 x1)) -∗ K ⟨⟩))
      ⊢ wp frame (wpE (defs₀ (F := F)) Variants.none c none) E (cc2__main_kernel i arg1 harg1 arg2 harg2 arg3 harg3 arg4 harg4) K := by
  simp only [cc2__main_kernel_eq_skeleton]; unfold cc2__main_kernel_skel
  simp only [k2_part1_eq_skeleton]; unfold k2_part1_skel
  unfold owns
  iintro ⟨⟨%f0, %hf0, H0⟩, ⟨%f1, %hf1, H1⟩, ⟨%d2, %f2, -, H2⟩, ⟨%d3, %f3, -, H3⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover2_2 _)
  iexists _; isplitr
  swap; · iexact H3
  ipureintro
  exact View.read_writes_eq_canon _ _ _ (cover2_3 _)

/-- The proof data of the pipeline. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
    | ⟨3, _⟩ => out2_3 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]
theorem after2_3 (c : Dev nD) (t : Fin cfg2.N) : (dat2 V c).after 3 t = out2_3 (iblk2 V c 0 t) (iblk2 V c 1 t) := by dsimp only [dat2]

/-- Each input window's current buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the body's triple applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch's obligation on the body, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Shared1.lean ====
/-
  The alignment kernel reads the normalised slots through two windows. The core's one full holding of that array is
  dealt to the two windows as the two halves of the full share when the region is entered, and the halves are put
  together again when it is left; the result array is held whole throughout.
-/
import proofs.«131549_j58806692217158_1_alg».proof.Proof.KI.Reg1
import Idealize.ShloMosaic.Lib.Pipeline.Kit
import Idealize.ShloMosaic.Lib.Pipeline.Regions

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)
open Cert.KernelIdeal.Gen

variable {F : FTy → Type} [FloatOps F]

local notation "𝕄" => MT nD τ sig Unit (Elt F) ℕ (UR sig nD τ) ℕ

variable (VV : (c : Dev nD) → (b : Ref sig .tc) → Buf (Elt F) ((c : Thread nD τ).loc b))

/-- The distinct buffers behind region 1's three windows: the slots' array and the result array. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v2) ↦{fullShare} V main_v2) ∗ (((c : Thread nD τ).loc main_v3) ↦{fullShare} V main_v3)) := by
  unfold Pipeline.arrBufs
  exact bigSep_eq_bigSepL_of_eq [main_v2, main_v3] (by decide) (by decide) _

/-- The three windows' holdings, one by one: the slots' array at the left half, again at the right half, the result
    array whole. -/
theorem arrays1_eq (c : Dev nD) (G : (w : Fin cfg1.W) → Buf (Elt F) ((cfg1.win w).arr.view.loc (c : Thread nD τ))) :
    ((dat1 VV c).arrays G : sProp 𝕄)
      = iprop((((c : Thread nD τ).loc main_v2) ↦{fullShare.left} G 0) ∗ (((c : Thread nD τ).loc main_v2) ↦{fullShare.right} G 1)
          ∗ (((c : Thread nD τ).loc main_v3) ↦{fullShare} G 2)) := by
  unfold Pipeline.Dat.arrays
  rw [bigSep_W1, (arr_whole1 0).set_eq_univ, (arr_whole1 2).set_eq_univ]
  rfl

/-- ENTRY: the two buffers whole at contents V make the three windows' holdings at V. -/
theorem arrays1_of_bufs (c : Dev nD) (V : (b : Ref sig .tc) → Buf (Elt F) ((c : Thread nD τ).loc b))
    (G : (w : Fin cfg1.W) → Buf (Elt F) ((cfg1.win w).arr.view.loc (c : Thread nD τ)))
    (hG : ∀ w, G w = V (Pipeline.arrRef spec1 w)) :
    (Pipeline.arrBufs (Ix := Unit) (Name := ℕ) (U := UR sig nD τ) (Lvl := ℕ) spec1 c V : sProp 𝕄) ⊢ (dat1 VV c).arrays G := by
  rw [arrBufs1_eq, arrays1_eq, hG 0, hG 1, hG 2]
  iintro ⟨H2, H3⟩
  ihave H := (pointsTo_share (PosShare.mem_left_op_right fullShare)).1 $$ H2
  icases H with ⟨Ha, Hb⟩
  isplitl [Ha]; · iexact Ha
  isplitl [Hb]; · iexact Hb
  iexact H3

/-- EXIT: the three windows' holdings at contents that two buffers' contents V' explain make those buffers whole at V'. -/
theorem bufs_of_arrays1 (c : Dev nD) (V' : (b : Ref sig .tc) → Buf (Elt F) ((c : Thread nD τ).loc b))
    (G : (w : Fin cfg1.W) → Buf (Elt F) ((cfg1.win w).arr.view.loc (c : Thread nD τ)))
    (hG : ∀ w, G w = V' (Pipeline.arrRef spec1 w)) :
    ((dat1 VV c).arrays G : sProp 𝕄) ⊢ Pipeline.arrBufs (Ix := Unit) (Name := ℕ) (U := UR sig nD τ) (Lvl := ℕ) spec1 c V' := by
  rw [arrBufs1_eq, arrays1_eq, hG 0, hG 1, hG 2]
  iintro ⟨Ha, Hb, H3⟩
  isplitl [Ha Hb]
  · iapply (pointsTo_share (PosShare.mem_left_op_right fullShare)).2
    isplitl [Ha]; · iexact Ha
    iexact Hb
  iexact H3

end Cert.KernelIdeal.Hand

end
-- ==== Proof.KI.Run.lean ====
/-
  The run of the whole program on a core: the contents of every buffer outside the kernels' scratch at each boundary
  between two items of the program — the launch memory, then the two re-layouts of the pixel features, then each of
  the three kernel regions leaving its result array at what its write-backs fold to and every other buffer as it was,
  then the four re-layouts of the results — and the statement that every fair execution ends with exactly those
  contents. Each region is entered from the contents the item before it left; no item writes an argument.
-/
import proofs.«131549_j58806692217158_1_alg».proof.Proof.KI.Reg0
import proofs.«131549_j58806692217158_1_alg».proof.Proof.KI.Reg1
import proofs.«131549_j58806692217158_1_alg».proof.Proof.KI.Reg2
import proofs.«131549_j58806692217158_1_alg».proof.Proof.KI.Shared1
import proofs.«131549_j58806692217158_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the two re-layouts of the pixel features (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: the normalised slots' array at what the region's write-back leaves, the rest as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: the alignment array at what the region's write-backs leave, the rest as entered (the two
    input windows read one array, which stays as entered). -/
def W3 (c : Dev nD) : Valuation τ sig (Elt F) :=
  Function.update (W2 m ρ c) (Proc.devRef .tc main_v3) ((dat1 (V2 m ρ) c).arrAt 2 cfg1.N)
abbrev V3 : (c : Dev nD) → (b : Ref sig .tc) → Buf (Elt F) ((c : Thread nD τ).loc b) := fun c b => W3 m ρ c b
theorem W3_main_v3 (c : Dev nD) : W3 m ρ c (Proc.devRef .tc main_v3) = (dat1 (V2 m ρ) c).arrAt 2 cfg1.N := by
  unfold W3; exact Function.update_self ..
theorem W3_of_ne (c : Dev nD) (b : Ref sig .tc) (hb : b ≠ main_v3) :
    W3 m ρ c (Proc.devRef .tc b) = W2 m ρ c (Proc.devRef .tc b) := by
  unfold W3; exact Function.update_of_ne (StableHlo.devRef_ne_of_ne hb) ..
theorem hF1 (c : Dev nD) (w : Fin cfg1.W) : (dat1 (V2 m ρ) c).arrAt w cfg1.N = V3 m ρ c (Pipeline.arrRef spec1 w) := by
  match w with
  | ⟨0, _⟩ => exact (((dat1 (V2 m ρ) c).arrAt_in 0 rfl _).trans (A_eq1 (V2 m ρ) c 0)).trans (W3_of_ne m ρ c main_v2 (by decide)).symm
  | ⟨1, _⟩ => exact (((dat1 (V2 m ρ) c).arrAt_in 1 rfl _).trans (A_eq1 (V2 m ρ) c 1)).trans (W3_of_ne m ρ c main_v2 (by decide)).symm
  | ⟨2, _⟩ => exact (W3_main_v3 m ρ c).symm
theorem hrest1 (c : Dev nD) : ∀ b, b ∉ Finset.univ.image (Pipeline.arrRef spec1) → V3 m ρ c b = V2 m ρ c b :=
  fun b hb => W3_of_ne m ρ c b fun e => hb (Finset.mem_image.mpr ⟨2, Finset.mem_univ _, e.symm⟩)

/-- At region 2's exit: the output-rows and attention-rows arrays at what the region's write-backs leave. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- After the four re-layouts of the results: the contents the program ends with. -/
abbrev W5 : Dev nD → Valuation τ sig (Elt F) := fun c => StableHlo.after hostOps3 (W4 m ρ c)

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A stretch of host operations as an item, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed. -/
abbrev Tₙ (c : Dev nD) : sProp 𝕄 := iprop(StableHlo.held (c : Thread nD τ) (Pipeline.ucRefs τ sig) (W5 m ρ c) ∗ ∃ r, prngReg c r)

/-! ## The regions as items -/

set_option backward.isDefEq.respectTransparency.types false in
/-- REGION 0 over the thread state: entered from every unscoped buffer at `W1`, left at `W2`. Its arrays are split
    out of the unscoped buffers and put back at the exit contents; the generator register goes into the region's
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W2`, left at `W3`. Its arrays are split
    out of the unscoped buffers and put back at the exit contents; the generator register goes into the region's
    invariant and comes out; nothing is owed; the kernel has no semaphore of its own. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit : (unscopedBufs c (V2 m ρ c) : sProp 𝕄)
        ⊢ iprop((pdats m ρ 1 c).arrays ((pdats m ρ 1 c).arrAt · 0) ∗ Pipeline.unscopedRest (Ix := Unit) (Name := ℕ) (U := UR sig nD τ) (Lvl := ℕ) spec1 c (V2 m ρ c)) := by
      rw [Pipeline.unscopedBufs_split₀ (cfgs := cfgs) (p := 1) winFacts₀1.arr_unscoped c (V2 m ρ c)]
      exact sep_mono (arrays1_of_bufs (V2 m ρ) c (V2 m ρ c) _ fun _ => rfl) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest (Ix := Unit) (Name := ℕ) (U := UR sig nD τ) (Lvl := ℕ) spec1 c (V2 m ρ c))
        ⊢ (unscopedBufs c (V3 m ρ c) : sProp 𝕄) := by
      rw [Pipeline.unscopedBufs_split₀ (cfgs := cfgs) (p := 1) winFacts₀1.arr_unscoped c (V3 m ρ c)]
      refine sep_mono (bufs_of_arrays1 (V2 m ρ) c (V3 m ρ c) _ (hF1 m ρ c)) (Entails.of_eq ?_)
      unfold Pipeline.unscopedRest
      exact bigSep_congr fun b hb => by rw [hrest1 m ρ c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W3`, left at `W4`. Its arrays are split
    out of the unscoped buffers and put back at the exit contents; the generator register goes into the region's
    invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as items, and the launch -/

/-- The program's five items in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .host (hseg hostOps3 hostOps3_sub hostOps3_fresh (W4 m ρ)) ]
theorem main_run (c : Dev nD) : main (F := F) c = Pipeline.Seg.run (segs m ρ) := (main_chain c).trans (by chain_rfl)

set_option backward.isDefEq.respectTransparency.types false in
/-- Every weakly fair execution of the program from memory `m` with zero counters terminates, nothing faulting, and
    every final state holds every buffer outside the kernels' scratch at the last boundary's contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-! ## The arguments end as launched

No stretch of host operations writes an argument, region 0 only reads the slots through an input window, and the other
regions do not touch the arguments: reading the last boundary's contents at an argument walks back to the launch memory. -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps3 _ hostOps3_writes (by decide)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

/-- The slots' array stays as launched up to the boundary after region 0, whose input window only reads it. -/
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := (W2_arr m ρ c 0).trans (((dat0 (V1 m ρ) c).arrAt_in 0 rfl _).trans (A_eq0 (V1 m ρ) c 0))
    _ = W0 m ρ c (Proc.devRef .tc main_arg1) := StableHlo.after_of_writes_sub hostOps0 _ hostOps0_writes (by decide)
    _ = m ((c : Thread nD τ).loc main_arg1) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps3 _ hostOps3_writes (by decide)
    _ = W3 m ρ c (Proc.devRef .tc main_arg1) := W4_of_ne m ρ c main_arg1 (by decide)
    _ = W2 m ρ c (Proc.devRef .tc main_arg1) := W3_of_ne m ρ c main_arg1 (by decide)
    _ = m ((c : Thread nD τ).loc main_arg1) := W2_main_arg1 m ρ c

/-- The frame: every weakly fair execution terminates, nothing faulting, with both arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W5_main_arg0 m ρ c),
     (h c _ (mem_uc main_arg1 (by decide))).trans (W5_main_arg1 m ρ c)⟩) (run_all m ρ)

end Cert.KernelIdeal.Hand

end
-- ==== Proof.Spec.lean ====
/-
  What the three results are, entry by entry, over the extended reals.

  With XF the [32768, 512] matrix of pixel features (one row per pixel) and W the [2000, 512] matrix of memory slots:
  every row is divided by its Euclidean norm, floored at a small constant (`nrm`); a pixel's score against slot m is the
  inner product of the two normalised rows; a row of scores goes through the softmax (the maximum subtracted first), then
  through the soft threshold at lam (`shrink`: values within lam of zero become zero, the others move lam towards zero),
  then is divided by the sum of its absolute values, floored (`attRow`); the output row is that attention row against
  the normalised slots, and the slot alignment is the Gram matrix of the normalised slots.

  The functions of the normalised slots take them as an array A of their own, so that a program which first stores the
  normalised slots and then reads them back is described by the same functions.
-/
import proofs.«131549_j58806692217158_1_alg».proof.KernelIdeal
import Idealize.ShloMosaic.PureOps.Ideal
import Idealize.ShloMosaic.Lib.ValueIdx

noncomputable section

namespace Cert.Spec

open Idealize.ShloMosaic Idealize.ShloMosaic.ValueIdx Cert.KernelIdeal

/-- The floor under a norm or a sum of absolute values. -/
abbrev eps : EReal := Ideal.ofBits .f32 0x2B8CBCCC#32
/-- The soft threshold. -/
abbrev lam : EReal := Ideal.ofBits .f32 0x3B23D70A#32
/-- Its negative. -/
abbrev nlam : EReal := Ideal.ofBits .f32 0xBB23D70A#32
/-- The value a maximum over a row starts from. -/
abbrev negInf : EReal := Ideal.ofBits .f32 0xFF800000#32
/-- The zero a thresholded entry becomes. -/
abbrev zero : EReal := Ideal.ofBits .f32 0x00000000#32

/-- The Euclidean norm of a row, floored at `eps`. -/
def nrm {n : ℕ} (row : Fin n → EReal) : EReal := max (Ideal.sqrt (∑ k : Fin n, row k * row k)) eps

/-- Entry (p, q) of the slots with every row divided by its floored norm. -/
def wn (W : S2000x512.Idx → EReal) (p : Fin 2000) (q : Fin 512) : EReal :=
  Ideal.div (W (ix2 p q)) (nrm fun k : Fin 512 => W (ix2 p k))

/-- The normalised slots as an array. -/
def wnS (W : S2000x512.Idx → EReal) : S2000x512.Idx → EReal := fun i => wn W (i 0) (i 1)

/-- Entry (t, l) of the pixel features with every row divided by its floored norm. -/
def xn (XF : S32768x512.Idx → EReal) (t : Fin 32768) (l : Fin 512) : EReal :=
  Ideal.div (XF (ix2 t l)) (nrm fun k : Fin 512 => XF (ix2 t k))

/-- Pixel t's score against slot m: the inner product of the normalised pixel row with row m of A. -/
def score (XF : S32768x512.Idx → EReal) (A : S2000x512.Idx → EReal) (t : Fin 32768) (m : Fin 2000) : EReal :=
  ∑ l : Fin 512, xn XF t l * A (ix2 m l)

/-- The maximum of a row of scores, from minus infinity. -/
def rowMax (s : Fin 2000 → EReal) : EReal := (Finset.univ : Finset (Fin 2000)).fold max negInf s

/-- The softmax of a row of scores at entry m. -/
def softmaxRow (s : Fin 2000 → EReal) (m : Fin 2000) : EReal :=
  Ideal.div (Ideal.exp (s m - rowMax s)) (∑ j : Fin 2000, Ideal.exp (s j - rowMax s))

/-- The soft threshold at `lam`. -/
def shrink (p : EReal) : EReal :=
  Scalar.select (Ideal.cmp .ogt p lam) (p - lam) (Scalar.select (Ideal.cmp .olt p nlam) (p + lam) zero)

/-- The thresholded softmax of a row of scores at entry m. -/
def shr (s : Fin 2000 → EReal) (m : Fin 2000) : EReal := shrink (softmaxRow s m)

/-- The attention row: the thresholded softmax divided by the floored sum of its absolute values. -/
def attRow (s : Fin 2000 → EReal) (m : Fin 2000) : EReal :=
  Ideal.div (shr s m) (max (∑ j : Fin 2000, max (shr s j) (-(shr s j))) eps)

/-- The attention of pixel t on slot m. -/
def att (XF : S32768x512.Idx → EReal) (A : S2000x512.Idx → EReal) (t : Fin 32768) (m : Fin 2000) : EReal :=
  attRow (fun j => score XF A t j) m

/-- The attention as an array [32768, 2000]. -/
def attK (XF : S32768x512.Idx → EReal) (A : S2000x512.Idx → EReal) : S32768x2000.Idx → EReal :=
  fun i => att XF A (i 0) (i 1)

/-- The output as an array [32768, 512]: each attention row against the columns of A. -/
def outK (XF : S32768x512.Idx → EReal) (A : S2000x512.Idx → EReal) : S32768x512.Idx → EReal :=
  fun i => ∑ m : Fin 2000, att XF A (i 0) m * A (ix2 m (i 1))

/-- The slot alignment as an array [2000, 2000]: the Gram matrix of the rows of A. -/
def mmK (A : S2000x512.Idx → EReal) : S2000x2000.Idx → EReal :=
  fun i => ∑ l : Fin 512, A (ix2 (i 0) l) * A (ix2 (i 1) l)

theorem wnS_ix2 (W : S2000x512.Idx → EReal) (p : Fin 2000) (q : Fin 512) : wnS W (ix2 p q) = wn W p q := rfl
theorem attK_ix2 (XF : S32768x512.Idx → EReal) (A : S2000x512.Idx → EReal) (t : Fin 32768) (m : Fin 2000) :
    attK XF A (ix2 t m) = att XF A t m := rfl
theorem outK_ix2 (XF : S32768x512.Idx → EReal) (A : S2000x512.Idx → EReal) (t : Fin 32768) (q : Fin 512) :
    outK XF A (ix2 t q) = ∑ m : Fin 2000, att XF A t m * A (ix2 m q) := rfl
theorem mmK_ix2 (A : S2000x512.Idx → EReal) (p q : Fin 2000) :
    mmK A (ix2 p q) = ∑ l : Fin 512, A (ix2 p l) * A (ix2 q l) := rfl

end Cert.Spec

end
-- ==== Proof.LibRowOps.lean ====
/-
  Rows of a matrix read at an index: the keepdims column and the reductions over the columns.

  A vector [a] viewed as a column [a, 1] keeps its entries; a column [a, 1] broadcast to [a, b] repeats entry `p` along row
  `p`. A sum or a maximum over the second axis of an [a, b] matrix, read at row `i`, is the sum or the fold of `max` over the
  entries `(i, l)` of that row: for a kernel's reduction from its accumulator's value, and for the host's maximum from its
  initial value. The reductions are at the ideal values.
-/
import Idealize.ShloMosaic.PureOps.Ideal.Laws
import Idealize.ShloMosaic.Lib.ValueIdx
import Idealize.ShloMosaic.Lib.Pipeline.Value

noncomputable section

namespace Idealize.ShloMosaic.RowOps

open Idealize.ShloMosaic Idealize.ShloMosaic.ValueIdx

variable {α : Type}

/-! ## The keepdims column -/

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Reductions over the columns, at the ideal values -/

/-- The index over row `i` with `l` put on the dropped second axis is `(i, l)`. -/
theorem lift_row {a b : ℕ} (h : (⟨2, ![a, b]⟩ : Shape).Reduces [1] ⟨1, ![a]⟩) (i : Fin a) (l : Fin b) :
    h.lift (ix1 i) l = ix2 i l := by
  funext ax; apply Fin.ext
  match ax with
  | ⟨0, _⟩ => rfl
  | ⟨1, _⟩ => rfl

/-- A kernel's sum over the columns, read at row `i`, is the sum of the row's entries. -/
theorem multiReduction_add_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ l : Fin b, src (ix2 i l) := by
  refine (Ideal.multiReduction_add_single src acc h hφ hacc (ix1 i)).trans ?_
  show ∑ l : Fin b, src (h.lift (ix1 i) l) = _
  exact Finset.sum_congr rfl fun l _ => congrArg src (lift_row h i l)

/-- A kernel's maximum over the columns, read at row `i`, is the fold of `max`, from the accumulator's value, over the
    row's entries. -/
theorem multiReduction_maximumf_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun l => src (ix2 i l)) := by
  refine (Ideal.multiReduction_maximumf_single src acc h hφ hacc (ix1 i)).trans ?_
  show (Finset.univ : Finset (Fin b)).fold max (Ideal.ofBits φ acc) (fun l => src (h.lift (ix1 i) l)) = _
  exact congrArg (fun f : Fin b → EReal => (Finset.univ : Finset (Fin b)).fold max (Ideal.ofBits φ acc) f)
    (funext fun l => congrArg src (lift_row h i l))

/-- The host's maximum over the columns, read at row `i`, is the fold of `max`, from the initial value, over the row's
    entries. -/
theorem hostReduce_maximumf_row {a b : ℕ} {φ : FTy} {u : Shape} (x : (⟨2, ![a, b]⟩ : Shape).Idx → Ideal φ) (init : u.Idx → Ideal φ)
    (h' : (⟨2, ![a, b]⟩ : Shape).ReducesTo [1] ⟨1, ![a]⟩) (h : (⟨2, ![a, b]⟩ : Shape).Reduces [1] ⟨1, ![a]⟩) (hu : 0 < u.numel)
    (i : Fin a) :
    Host.reduce (FloatOps.maximumf (F := Ideal) (φ := φ)) x init h' hu (ix1 i)
      = (Finset.univ : Finset (Fin b)).fold max (init (Shape.Idx.first hu)) (fun l => x (ix2 i l)) := by
  refine (Host.reduce_eq_fold_single (FloatOps.maximumf (F := Ideal) (φ := φ)) x init h' h hu (ix1 i)).trans ?_
  show (Finset.univ : Finset (Fin b)).fold max (init (Shape.Idx.first hu)) (fun l => x (h.lift (ix1 i) l)) = _
  exact congrArg (fun f : Fin b → EReal => (Finset.univ : Finset (Fin b)).fold max (init (Shape.Idx.first hu)) f)
    (funext fun l => congrArg x (lift_row h i l))

end Idealize.ShloMosaic.RowOps

end
-- ==== Proof.LibMatmulRowsByRows.lean ====
/-
  The product of an m×k matrix with the transpose of an n×k matrix, read at an index, at the ideal values.

  With A of m rows and B of n rows, both of k entries, the product contracting the LAST axis of both has at (r, h) the
  entry Σ_l A(r, l)·B(h, l): row r of A against row h of B. At the ideal values, where no rounding and no order of
  summation is left, both the kernel's product into a zero accumulator and the host's product read exactly that sum.
  The four coordinate lemmas say where each operand is read: the contracted axis takes the contraction's one
  coordinate, each operand's kept axis the matching coordinate of the result.
-/
import Idealize.ShloMosaic.PureOps.Ideal.Laws
import Idealize.ShloMosaic.Lib.ValueIdx

noncomputable section

namespace Idealize.ShloMosaic.MatmulRowsByRows

open Idealize.ShloMosaic Idealize.ShloMosaic.ValueIdx

variable {m k n : ℕ}

/-- The dimension numbers `[1] × [1]`, kept axes `[0]` and `[0]`, no batch axis. -/
abbrev dims (w : DotDims.WF ⟨2, ![m, k]⟩ ⟨2, ![n, k]⟩ ⟨2, ![m, n]⟩ [1] [1] [0] [0] [] []) :
    DotDims ⟨2, ![m, k]⟩ ⟨2, ![n, k]⟩ ⟨2, ![m, n]⟩ := ⟨[1], [1], [0], [0], [], [], w⟩

/-- The left operand's kept axis reads the result's first coordinate. -/
theorem lhs_0 (w : DotDims.WF ⟨2, ![m, k]⟩ ⟨2, ![n, k]⟩ ⟨2, ![m, n]⟩ [1] [1] [0] [0] [] [])
    (j : (⟨2, ![m, n]⟩ : Shape).Idx) (q : (dims w).contr.Idx) :
    ((dims w).lhsIdx j q 0).val = (j 0).val := by
  unfold DotDims.lhsIdx
  rw [dif_neg (show ¬(0 : Fin 2) ∈ (dims w).lhsBatch from List.not_mem_nil),
    dif_pos (show (0 : Fin 2) ∈ (dims w).lhsNonContracting from List.mem_singleton.mpr rfl)]
  rfl

/-- The left operand's contracted axis reads the contraction's coordinate. -/
theorem lhs_1 (w : DotDims.WF ⟨2, ![m, k]⟩ ⟨2, ![n, k]⟩ ⟨2, ![m, n]⟩ [1] [1] [0] [0] [] [])
    (j : (⟨2, ![m, n]⟩ : Shape).Idx) (q : (dims w).contr.Idx) :
    ((dims w).lhsIdx j q 1).val = (q ⟨0, Nat.one_pos⟩).val :=
  (dims w).lhsIdx_val_of_single rfl j q

/-- The right operand's kept axis reads the result's second coordinate. -/
theorem rhs_0 (w : DotDims.WF ⟨2, ![m, k]⟩ ⟨2, ![n, k]⟩ ⟨2, ![m, n]⟩ [1] [1] [0] [0] [] [])
    (j : (⟨2, ![m, n]⟩ : Shape).Idx) (q : (dims w).contr.Idx) :
    ((dims w).rhsIdx j q 0).val = (j 1).val := by
  unfold DotDims.rhsIdx
  rw [dif_neg (show ¬(0 : Fin 2) ∈ (dims w).rhsBatch from List.not_mem_nil),
    dif_pos (show (0 : Fin 2) ∈ (dims w).rhsNonContracting from List.mem_singleton.mpr rfl)]
  rfl

/-- The right operand's contracted axis reads the contraction's coordinate. -/
theorem rhs_1 (w : DotDims.WF ⟨2, ![m, k]⟩ ⟨2, ![n, k]⟩ ⟨2, ![m, n]⟩ [1] [1] [0] [0] [] [])
    (j : (⟨2, ![m, n]⟩ : Shape).Idx) (q : (dims w).contr.Idx) :
    ((dims w).rhsIdx j q 1).val = (q ⟨0, Nat.one_pos⟩).val :=
  (dims w).rhsIdx_val_of_single rfl j q

/-- The contraction's sum, re-indexed by the contracted coordinate: the left operand is read along its row `r`, the
    right one along its row `h`. -/
theorem sum_contr (w : DotDims.WF ⟨2, ![m, k]⟩ ⟨2, ![n, k]⟩ ⟨2, ![m, n]⟩ [1] [1] [0] [0] [] [])
    (A : (⟨2, ![m, k]⟩ : Shape).Idx → EReal) (B : (⟨2, ![n, k]⟩ : Shape).Idx → EReal) (r : Fin m) (h : Fin n) :
    ∑ q : (dims w).contr.Idx, A ((dims w).lhsIdx (ix2 r h) q) * B ((dims w).rhsIdx (ix2 r h) q)
      = ∑ l : Fin k, A (ix2 r l) * B (ix2 h l) := by
  rw [← Equiv.sum_comp (contrEquiv1 (dims w) k rfl rfl).symm]
  refine Finset.sum_congr rfl fun l _ => ?_
  have c2 := contrEquiv1_symm_val (dims w) k rfl rfl l
  have l2 : (dims w).lhsIdx (ix2 r h) ((contrEquiv1 (dims w) k rfl rfl).symm l) = ix2 r l := by
    funext ax; apply Fin.ext
    match ax with
    | ⟨0, _⟩ => exact lhs_0 w _ _
    | ⟨1, _⟩ => exact (lhs_1 w _ _).trans c2
  have r2 : (dims w).rhsIdx (ix2 r h) ((contrEquiv1 (dims w) k rfl rfl).symm l) = ix2 h l := by
    funext ax; apply Fin.ext
    match ax with
    | ⟨0, _⟩ => exact rhs_0 w _ _
    | ⟨1, _⟩ => exact (rhs_1 w _ _).trans c2
  rw [l2, r2]

/-- A kernel's product of an m×k matrix with the transpose of an n×k matrix into the zero accumulator, read at `(r, h)`. -/
theorem matmul_rows_by_rows_apply {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (r : Fin m) (h : Fin n) :
    FloatOps.matmul (⟨[1], [1], [0], [0], [], [], w⟩ : DotDims _ _ _) prec A B
        (constant ⟨2, ![m, n]⟩ .f32 0x00000000#32) (ix2 r h)
      = ∑ l : Fin k, A (ix2 r l) * B (ix2 h l) := by
  rw [Ideal.matmul_constant_zero_apply]
  exact sum_contr w A B r h

/-- The host's product of an m×k matrix with the transpose of an n×k matrix, read at `(r, h)`. -/
theorem dotGeneral_rows_by_rows_apply {φ₁ φ₂ : FTy}
    (w : DotDims.WF ⟨2, ![m, k]⟩ ⟨2, ![n, k]⟩ ⟨2, ![m, n]⟩ [1] [1] [0] [0] [] [])
    (prec : Option ContractPrecision) (sched : HostSchedule) (A : FVec Ideal ⟨2, ![m, k]⟩ φ₁) (B : FVec Ideal ⟨2, ![n, k]⟩ φ₂)
    (r : Fin m) (h : Fin n) :
    FloatOps.dotGeneral (⟨[1], [1], [0], [0], [], [], w⟩ : DotDims _ _ _) prec sched A B (ix2 r h)
      = ∑ l : Fin k, A (ix2 r l) * B (ix2 h l) := by
  rw [Ideal.dotGeneral_apply]
  exact sum_contr w A B r h

end Idealize.ShloMosaic.MatmulRowsByRows

end
-- ==== Proof.Pay01.lean ====
/-
  The bodies of the first two kernels read at an entry, over the extended reals: the normalising kernel writes the slots
  with every row divided by its floored norm, the alignment kernel the inner products of the rows of its two operands.
-/
import proofs.«131549_j58806692217158_1_alg».proof.Proof.Gen.KernelIdeal.Skeleton
import proofs.«131549_j58806692217158_1_alg».proof.Proof.Spec
import proofs.«131549_j58806692217158_1_alg».proof.Proof.LibRowOps
import proofs.«131549_j58806692217158_1_alg».proof.Proof.LibMatmulRowsByRows
import Idealize.ShloMosaic.PureOps.Ideal.Laws
import Idealize.ShloMosaic.Lib.ValueIdx
import Idealize.ShloMosaic.Lib.Pipeline.Value

noncomputable section

namespace Cert.KernelIdeal.Pay

open Idealize.ShloMosaic Idealize.ShloMosaic.ValueIdx Cert.KernelIdeal Cert.KernelIdeal.Gen

/-- The normalising kernel's stored value at (p, q): the slot entry over its row's floored norm. -/
theorem pay0_apply (x : Vec Ideal S2000x512 .f32) (p : Fin 2000) (q : Fin 512) :
    k0_pay1 (F := Ideal) x (ix2 p q) = Cert.Spec.wn x p q := by
  unfold k0_pay1 Cert.Spec.wn Cert.Spec.nrm
  -- Both sides divide the entry (p, q) of the slots; what remains is the divisor.
  show Ideal.div (x (ix2 p q)) (broadcastTo S2000x512 _ broadcasts_S2000x1_S2000x512 (ix2 p q)) = Ideal.div (x (ix2 p q)) _
  refine congrArg (Ideal.div (x (ix2 p q))) ?_
  -- The divisor at (p, q) is entry p of the column of floored norms.
  refine (RowOps.broadcastTo_a1_ab_apply _ broadcasts_S2000x1_S2000x512 p q).trans ?_
  -- That entry is the larger of the floor and the square root of the column of row sums at p.
  show max (Ideal.sqrt (shapeCast S2000x1 _ shapeCasts_S2000_S2000x1 (ix2 p (0 : Fin 1)))) _ = max (Ideal.sqrt _) _
  refine congrArg (fun t => max (Ideal.sqrt t) Cert.Spec.eps) ?_
  -- The column keeps the entries of the vector of row sums, and row p's sum is over the squares of its entries.
  refine (RowOps.shapeCast_a_a1_apply _ shapeCasts_S2000_S2000x1 p 0).trans ?_
  exact RowOps.multiReduction_add_row (mulf x x) _ _ _ _ p

/-- The alignment kernel's stored value at (p, q): row p of its first operand against row q of its second. -/
theorem pay1_apply (a : Vec Ideal S400x512 .bf16) (b : Vec Ideal S2000x512 .bf16) (p : Fin 400) (q : Fin 2000) :
    k1_pay1 (F := Ideal) a b (ix2 p q) = ∑ l : Fin 512, a (ix2 p l) * b (ix2 q l) := by
  unfold k1_pay1
  -- The value is the product, into the zero matrix, of the two operands each recast to its own shape.
  show FloatOps.matmul dot_S400x512_S2000x512_S400x2000_1_1_0_0_n_n none
      (shapeCast S400x512 a shapeCasts_S400x512_S400x512) (shapeCast S2000x512 b shapeCasts_S2000x512_S2000x512)
      (constant (F := Ideal) S400x2000 .f32 0x00000000#32) (ix2 p q) = _
  -- A recast to the same shape changes nothing; the product contracts the last axis of both operands.
  rw [shapeCast_self a, shapeCast_self b]
  exact MatmulRowsByRows.matmul_rows_by_rows_apply dot_S400x512_S2000x512_S400x2000_1_1_0_0_n_n_wf none a b p q

end Cert.KernelIdeal.Pay

end
-- ==== Proof.KI.Arr0.lean ====
/-
  What the normalising kernel leaves in its result array over the extended reals: its grid has one point, whose block is
  the whole array, so the array ends at the body's value of the whole slot array, the slots with every row divided by
  its floored norm.
-/
import proofs.«131549_j58806692217158_1_alg».proof.Proof.KI.Reg0
import proofs.«131549_j58806692217158_1_alg».proof.Proof.Pay01
import proofs.«131549_j58806692217158_1_alg».proof.Proof.Spec
import Idealize.ShloMosaic.Lib.Pipeline.Value
import Idealize.ShloMosaic.Lib.ValueIdx

set_option maxRecDepth 16384

noncomputable section

namespace Cert.KernelIdeal.HandValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

-- the TensorCore's buffer contents when the region is entered, over the extended reals
variable (V : (c : Dev nD) → (b : Ref sig .tc) → Buf (Elt Ideal) ((c : Thread nD τ).loc b))

/-- Both windows' one block starts at row 0 and column 0, at every point of the grid. -/
theorem idx_facts0 : ∀ t : Fin cfg0.N, win0_0.index t (0 : Fin 2) = 0 ∧ win0_0.index t (1 : Fin 2) = 0
    ∧ win0_1.index t (0 : Fin 2) = 0 ∧ win0_1.index t (1 : Fin 2) = 0 :=
  (by decide +kernel : ∀ t : Fin grid0.N, _)

/-- The body's value of a whole slot array, index by index: the normalised slots. -/
theorem pay0_at (x : Vec Ideal S2000x512 .f32) (j : S2000x512.Idx) :
    k0_pay1 (F := Ideal) x j = Cert.Spec.wnS x j := by
  obtain ⟨p, q, rfl⟩ : ∃ p q, j = ix2 p q := ⟨j 0, j 1, eq_ix2 j⟩
  rw [Pay.pay0_apply, Cert.Spec.wnS_ix2]

/-- A block that starts at row 0 and column 0 with the array's own extents sits at the array's own indices. -/
theorem emb_whole0 (i0 i1 : ℕ) (h0 : i0 = 0) (h1 : i1 = 0) (y k : S2000x512.Idx)
    (hk0 : (k 0).val = i0 * 2000 + 1 * (y 0).val) (hk1 : (k 1).val = i1 * 512 + 1 * (y 1).val) : k = y := by
  subst h0 h1
  funext a; apply Fin.ext
  match a with
  | ⟨0, _⟩ => show (k 0).val = (y 0).val; omega
  | ⟨1, _⟩ => show (k 1).val = (y 1).val; omega

/-- The input window's one block is the whole slot array the region was handed. -/
theorem iblk0_0_eq (c : Dev nD) (t : Fin cfg0.N) :
    (iblk0 V c 0 t : Vec Ideal S2000x512 .f32) = (V c main_arg1 : S2000x512.Idx → EReal) := by
  obtain ⟨e0, e1, -, -⟩ := idx_facts0 t
  funext y
  show V c main_arg1 (((cfg0.win 0).blk t).view.emb y) = V c main_arg1 y
  congr 1
  exact emb_whole0 _ _ e0 e1 y _ rfl rfl

/-- What the one point writes back is its block of the normalised slots. -/
theorem flushed0_1_eq (c : Dev nD) (t : Fin cfg0.N) :
    (dat0 (F := Ideal) V c).flushed 1 t = ((cfg0.win 1).blk t).view.read (Elt Ideal) (Cert.Spec.wnS (V c main_arg1)) := by
  show (cfg0.win 1).cut (grid0.coords t) ((dat0 V c).after 1 t) = _
  rw [after0_1, out0_1_eq, iblk0_0_eq]
  obtain ⟨-, -, e2, e3⟩ := idx_facts0 t
  funext j
  show k0_pay1 (F := Ideal) (V c main_arg1) j = Cert.Spec.wnS (V c main_arg1) (((cfg0.win 1).blk t).view.emb j)
  rw [pay0_at]
  congr 1
  exact (emb_whole0 _ _ e2 e3 j _ rfl rfl).symm

/-- An index of the array is in the point's block iff each coordinate is in the block's range on its axis. -/
theorem mem_blk0_1 (t : Fin cfg0.N) (i : S2000x512.Idx) :
    i ∈ ((cfg0.win 1).blk t).view.set ↔ ∀ a : Fin 2, win0_1.index t a * S2000x512.size a ≤ (i a).val ∧ (i a).val < win0_1.index t a * S2000x512.size a + S2000x512.size a := by
  show i ∈ ((View.whole main_v2).slice (win0_1.rect t)).set ↔ _
  rw [View.set_slice_whole, Rect.mem_set_unit]
  exact Iff.rfl

/-- The one block covers the whole array. -/
theorem cover0_1_arr (i : S2000x512.Idx) :
    ∃ t : Fin cfg0.N, (cfg0.win 1).flush t = true ∧ i ∈ ((cfg0.win 1).blk t).view.set := by
  refine ⟨t0_0, flush0_1 t0_0, ?_⟩
  rw [mem_blk0_1]
  obtain ⟨-, -, e2, e3⟩ := idx_facts0 t0_0
  have hi0 : (i 0).val < 2000 := (i 0).isLt
  have hi1 : (i 1).val < 512 := (i 1).isLt
  intro a
  match a with
  | ⟨0, _⟩ => show win0_1.index t0_0 (0 : Fin 2) * 2000 ≤ (i 0).val ∧ (i 0).val < win0_1.index t0_0 (0 : Fin 2) * 2000 + 2000; omega
  | ⟨1, _⟩ => show win0_1.index t0_0 (1 : Fin 2) * 512 ≤ (i 1).val ∧ (i 1).val < win0_1.index t0_0 (1 : Fin 2) * 512 + 512; omega

/-- The result array of the region: the normalised slots of the array it was handed. -/
theorem arr0 (c : Dev nD) :
    (dat0 (F := Ideal) V c).arrAt 1 cfg0.N = Cert.Spec.wnS (V c main_arg1) :=
  (dat0 (F := Ideal) V c).arrAt_eq_of_cover 1 (Cert.Spec.wnS (V c main_arg1)) (fun t _ => flushed0_1_eq V c t) cover0_1_arr

end Cert.KernelIdeal.HandValue

end
-- ==== Proof.KI.Arr1.lean ====
/-
  What the alignment kernel leaves in its result array over the extended reals: point t writes rows 400 t … 400 t + 399,
  each entry the inner product of two rows of the slots' array it was handed; the five blocks cover the array.
-/
import proofs.«131549_j58806692217158_1_alg».proof.Proof.KI.Reg1
import proofs.«131549_j58806692217158_1_alg».proof.Proof.Pay01
import proofs.«131549_j58806692217158_1_alg».proof.Proof.Spec
import Idealize.ShloMosaic.Lib.Pipeline.Value
import Idealize.ShloMosaic.Lib.ValueIdx

set_option maxRecDepth 16384

noncomputable section

namespace Cert.KernelIdeal.HandValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

-- the TensorCore's buffer contents when the region is entered, over the extended reals
variable (V : (c : Dev nD) → (b : Ref sig .tc) → Buf (Elt Ideal) ((c : Thread nD τ).loc b))

/-- The printed index maps over the five points: the row windows sit at block row t, the whole-array window at the origin. -/
theorem block_index : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The first input's block at point t is rows 400 t … 400 t + 399 of the array. -/
theorem rowBlock_apply (c : Dev nD) (t : Fin cfg1.N) (x : S400x512.Idx) (k : S2000x512.Idx)
    (hk0 : (k 0).val = 400 * t.val + (x 0).val) (hk1 : (k 1).val = (x 1).val) :
    (iblk1 V c 0 t : Vec Ideal S400x512 .bf16) x = (V c main_v2 : S2000x512.Idx → EReal) k := by
  obtain ⟨e0, e1, -, -, -, -⟩ := block_index t
  unfold iblk1
  rw [View.read_apply]
  show V c main_v2 _ = V c main_v2 _
  congr 1
  funext a
  apply Fin.ext
  match a with
  | ⟨0, _⟩ => show win1_0.index t (0 : Fin 2) * 400 + 1 * (x 0).val = (k 0).val; rw [e0, hk0]; omega
  | ⟨1, _⟩ => show win1_0.index t (1 : Fin 2) * 512 + 1 * (x 1).val = (k 1).val; rw [e1, hk1]; omega

/-- The second input's block at every point is the array itself. -/
theorem wholeBlock_apply (c : Dev nD) (t : Fin cfg1.N) (k : S2000x512.Idx) :
    (iblk1 V c 1 t : Vec Ideal S2000x512 .bf16) k = (V c main_v2 : S2000x512.Idx → EReal) k := by
  obtain ⟨-, -, e2, e3, -, -⟩ := block_index t
  unfold iblk1
  rw [View.read_apply]
  show V c main_v2 _ = V c main_v2 _
  congr 1
  funext a
  apply Fin.ext
  match a with
  | ⟨0, _⟩ => show win1_1.index t (0 : Fin 2) * 2000 + 1 * (k 0).val = (k 0).val; rw [e2]; omega
  | ⟨1, _⟩ => show win1_1.index t (1 : Fin 2) * 512 + 1 * (k 1).val = (k 1).val; rw [e3]; omega

/-- Rows r … r + 399 of A against all of A: the stored block at (p, q) is entry (r + p, q) of the Gram matrix of A. -/
theorem gram_block (A : S2000x512.Idx → EReal) (r : ℕ) (x0 : Vec Ideal S400x512 .bf16) (x1 : Vec Ideal S2000x512 .bf16)
    (h0 : ∀ (x : S400x512.Idx) (k : S2000x512.Idx), (k 0).val = r + (x 0).val → (k 1).val = (x 1).val → x0 x = A k)
    (h1 : ∀ k, x1 k = A k) (j : S400x2000.Idx) (i : S2000x2000.Idx)
    (hi0 : (i 0).val = r + (j 0).val) (hi1 : (i 1).val = (j 1).val) :
    k1_pay1 (F := Ideal) x0 x1 j = Cert.Spec.mmK A i := by
  obtain ⟨p, q, rfl⟩ : ∃ (p : Fin 400) (q : Fin 2000), j = ix2 p q := ⟨j 0, j 1, eq_ix2 j⟩
  obtain ⟨u, v, rfl⟩ : ∃ (u : Fin 2000) (v : Fin 2000), i = ix2 u v := ⟨i 0, i 1, eq_ix2 i⟩
  have hq : q = v := Fin.ext hi1.symm
  subst hq
  rw [Cert.KernelIdeal.Pay.pay1_apply, Cert.Spec.mmK_ix2]
  refine Finset.sum_congr rfl fun l _ => ?_
  rw [h0 (ix2 p l) (ix2 u l) hi0 rfl, h1]

/-- What point t writes back is its block of the Gram matrix of the array the region was handed. -/
theorem flushed_gram (c : Dev nD) (t : Fin cfg1.N) :
    (dat1 (F := Ideal) V c).flushed 2 t = ((cfg1.win 2).blk t).view.read (Elt Ideal) (Cert.Spec.mmK (V c main_v2)) := by
  show (cfg1.win 2).cut (grid1.coords t) ((dat1 V c).after 2 t) = _
  rw [after1_2, out1_2_eq]
  obtain ⟨-, -, -, -, e4, e5⟩ := block_index t
  funext j
  show k1_pay1 (F := Ideal) (iblk1 V c 0 t) (iblk1 V c 1 t) j = Cert.Spec.mmK (V c main_v2) (((cfg1.win 2).blk t).view.emb j)
  refine gram_block (V c main_v2) (400 * t.val) (iblk1 V c 0 t) (iblk1 V c 1 t)
    (fun x k hk0 hk1 => rowBlock_apply V c t x k hk0 hk1) (fun k => wholeBlock_apply V c t k) j _ ?_ ?_
  · show win1_2.index t (0 : Fin 2) * 400 + 1 * (j 0).val = 400 * t.val + (j 0).val; rw [e4]; omega
  · show win1_2.index t (1 : Fin 2) * 2000 + 1 * (j 1).val = (j 1).val; rw [e5]; omega

/-- An index of the result array is in point t's block iff each coordinate is in the block's range on its axis. -/
theorem mem_rowBlock (t : Fin cfg1.N) (i : S2000x2000.Idx) :
    i ∈ ((cfg1.win 2).blk t).view.set ↔ ∀ a : Fin 2, win1_2.index t a * S400x2000.size a ≤ (i a).val ∧ (i a).val < win1_2.index t a * S400x2000.size a + S400x2000.size a := by
  show i ∈ ((View.whole main_v3).slice (win1_2.rect t)).set ↔ _
  rw [View.set_slice_whole, Rect.mem_set_unit]
  exact Iff.rfl

/-- The five blocks cover the result array: row r is written at point r / 400. -/
theorem rows_covered (i : S2000x2000.Idx) :
    ∃ t : Fin cfg1.N, (cfg1.win 2).flush t = true ∧ i ∈ ((cfg1.win 2).blk t).view.set := by
  have hi0 : (i 0).val < 2000 := (i 0).isLt
  have hi1 : (i 1).val < 2000 := (i 1).isLt
  have hN : cfg1.N = 5 := N_1
  obtain ⟨t, ht⟩ : ∃ t : Fin cfg1.N, t.val = (i 0).val / 400 := ⟨⟨(i 0).val / 400, by rw [hN]; omega⟩, rfl⟩
  obtain ⟨-, -, -, -, e4, e5⟩ := block_index t
  refine ⟨t, flush1_2 t, ?_⟩
  rw [mem_rowBlock]
  intro a
  match a with
  | ⟨0, _⟩ => show win1_2.index t (0 : Fin 2) * 400 ≤ (i 0).val ∧ (i 0).val < win1_2.index t (0 : Fin 2) * 400 + 400; rw [e4, ht]; omega
  | ⟨1, _⟩ => show win1_2.index t (1 : Fin 2) * 2000 ≤ (i 1).val ∧ (i 1).val < win1_2.index t (1 : Fin 2) * 2000 + 2000; rw [e5]; omega

/-- The result array of the region: the Gram matrix of the rows of the array it was handed. -/
theorem arr1 (c : Dev nD) :
    (dat1 (F := Ideal) V c).arrAt 2 cfg1.N = Cert.Spec.mmK (V c main_v2) :=
  (dat1 (F := Ideal) V c).arrAt_eq_of_cover 2 (Cert.Spec.mmK (V c main_v2)) (fun t _ => flushed_gram V c t) rows_covered

end Cert.KernelIdeal.HandValue

end
-- ==== Proof.LibDenseLayer.lean ====
/-
  A dense layer read at an index, at the ideal values.

  The product of an m×k matrix A with a k×n matrix B has, at (r, h), the entry Σ_l A(r, l)·B(l, h). At the ideal
  values, where no rounding and no order of summation is left, both the kernel's product into a zero accumulator and
  the host's product read exactly that sum. The four coordinate lemmas say where each operand is read: the contracted
  axis takes the contraction's one coordinate, the kept axis the matching coordinate of the result.

  The bias of the layer is a vector of n entries laid out as one row and repeated down the m rows: at (p, c) it reads
  the vector's entry c, whichever of the two spellings (a cast then a broadcast; two broadcasts in dimensions) wrote it.

  ELU is x where x > 0 and eˣ − 1 elsewhere. One spelling takes eˣ − 1 of x itself; the other multiplies by one the
  value e^y − 1 at y = 0 where x > 0, y = x elsewhere. On the branch that is read (x ≤ 0) y is x, so the two agree on
  every extended real.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost

noncomputable section

namespace Idealize.ShloMosaic.DenseLayer

open Idealize.ShloMosaic Idealize.ShloMosaic.ValueIdx

/-! ## The product of an m×k matrix with a k×n matrix -/

section Product
variable {m k n : ℕ}

/-- The dimension numbers `[1] × [0]`, kept axes `[0]` and `[1]`, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's kept axis reads the result's first coordinate. -/
theorem lhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 0).val = (j 0).val := by
  unfold DotDims.lhsIdx
  rw [dif_neg (show ¬(0 : Fin 2) ∈ (dims w).lhsBatch from List.not_mem_nil),
    dif_pos (show (0 : Fin 2) ∈ (dims w).lhsNonContracting from List.mem_singleton.mpr rfl)]
  rfl

/-- The left operand's contracted axis reads the contraction's coordinate. -/
theorem lhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 1).val = (q ⟨0, Nat.one_pos⟩).val :=
  (dims w).lhsIdx_val_of_single rfl j q

/-- The right operand's contracted axis reads the contraction's coordinate. -/
theorem rhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 0).val = (q ⟨0, Nat.one_pos⟩).val :=
  (dims w).rhsIdx_val_of_single rfl j q

/-- The right operand's kept axis reads the result's second coordinate. -/
theorem rhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 1).val = (j 1).val := by
  unfold DotDims.rhsIdx
  rw [dif_neg (show ¬(1 : Fin 2) ∈ (dims w).rhsBatch from List.not_mem_nil),
    dif_pos (show (1 : Fin 2) ∈ (dims w).rhsNonContracting from List.mem_singleton.mpr rfl)]
  rfl

/-- The contraction's sum, re-indexed by the contracted coordinate: the left operand is read along row `r`, the right
    one down column `h`. -/
theorem sum_contr (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (r : Fin m) (h : Fin n) :
    ∑ q : (dims w).contr.Idx, A ((dims w).lhsIdx (ix2 r h) q) * B ((dims w).rhsIdx (ix2 r h) q)
      = ∑ l : Fin k, A (ix2 r l) * B (ix2 l h) := by
  rw [← Equiv.sum_comp (contrEquiv1 (dims w) k rfl rfl).symm]
  refine Finset.sum_congr rfl fun l _ => ?_
  have c2 := contrEquiv1_symm_val (dims w) k rfl rfl l
  have l2 : (dims w).lhsIdx (ix2 r h) ((contrEquiv1 (dims w) k rfl rfl).symm l) = ix2 r l := by
    funext ax; apply Fin.ext
    match ax with
    | ⟨0, _⟩ => exact lhs_0 w _ _
    | ⟨1, _⟩ => exact (lhs_1 w _ _).trans c2
  have r2 : (dims w).rhsIdx (ix2 r h) ((contrEquiv1 (dims w) k rfl rfl).symm l) = ix2 l h := by
    funext ax; apply Fin.ext
    match ax with
    | ⟨0, _⟩ => exact (rhs_0 w _ _).trans c2
    | ⟨1, _⟩ => exact rhs_1 w _ _
  rw [l2, r2]

/-- A kernel's product of an m×k matrix with a k×n matrix into the zero accumulator, read at `(r, h)`. -/
theorem matmul_rows_apply {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (h : Fin n) :
    FloatOps.matmul (⟨[1], [0], [0], [1], [], [], w⟩ : DotDims _ _ _) prec A B
        (constant ⟨2, ![m, n]⟩ .f32 0x00000000#32) (ix2 r h)
      = ∑ l : Fin k, A (ix2 r l) * B (ix2 l h) := by
  rw [Ideal.matmul_constant_zero_apply]
  exact sum_contr w A B r h

/-- The host's product of an m×k matrix with a k×n matrix, read at `(r, h)`. -/
theorem dotGeneral_rows_apply {φ₁ φ₂ : FTy}
    (w : DotDims.WF ⟨2, ![m, k]⟩ ⟨2, ![k, n]⟩ ⟨2, ![m, n]⟩ [1] [0] [0] [1] [] [])
    (prec : Option ContractPrecision) (sched : HostSchedule) (A : FVec Ideal ⟨2, ![m, k]⟩ φ₁) (B : FVec Ideal ⟨2, ![k, n]⟩ φ₂)
    (r : Fin m) (h : Fin n) :
    FloatOps.dotGeneral (⟨[1], [0], [0], [1], [], [], w⟩ : DotDims _ _ _) prec sched A B (ix2 r h)
      = ∑ l : Fin k, A (ix2 r l) * B (ix2 l h) := by
  rw [Ideal.dotGeneral_apply]
  exact sum_contr w A B r h

end Product

/-! ## The bias row -/

section Bias
variable {α : Type} {a b : ℕ}

/-- A vector `[b]` cast to one row `[1, b]` and broadcast down `a` rows reads, at `(p, c)`, the vector at `c`. -/
theorem bias_cast_apply (v : (⟨1, ![b]⟩ : Shape).Idx → α) (h1 : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v h1) hb (ix2 p c) = v (ix1 c) := by
  rw [broadcastTo_1b_ab_apply, shapeCast_a_1a_apply]

/-- A vector `[b]` laid along axis 1 of a one-row matrix `[1, b]` reads, at `(u, c)`, the vector at `c`. -/
theorem broadcastInDim_vec_row_apply (h : (⟨1, ![b]⟩ : Shape).BroadcastsInDim ⟨2, ![1, b]⟩ ![1])
    (v : (⟨1, ![b]⟩ : Shape).Idx → α) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[b]` laid along axis 1 of a one-row matrix and that row repeated down `a` rows reads, at `(p, c)`,
    the vector at `c`. -/
theorem bias_inDim_apply (h1 : (⟨1, ![b]⟩ : Shape).BroadcastsInDim ⟨2, ![1, b]⟩ ![1])
    (h2 : (⟨2, ![1, b]⟩ : Shape).BroadcastsInDim ⟨2, ![a, b]⟩ ![0, 1])
    (v : (⟨1, ![b]⟩ : Shape).Idx → α) (p : Fin a) (c : Fin b) :
    broadcastInDim ⟨2, ![a, b]⟩ ![0, 1] h2 (broadcastInDim ⟨2, ![1, b]⟩ ![1] h1 v) (ix2 p c) = v (ix1 c) := by
  rw [broadcastInDim_oneRow_apply, broadcastInDim_vec_row_apply]

end Bias

/-! ## ELU on the extended reals -/

/-- ELU: `x` where `x > 0`, `eˣ − 1` elsewhere. -/
def elu (x : EReal) : EReal := Scalar.select (Ideal.cmp .ogt x 0) x (Ideal.exp x - 1)

/-- The spelling that multiplies by one the value `e^y − 1` at `y = 0` where `x > 0`, `y = x` elsewhere, is ELU. -/
theorem elu_guarded (x : EReal) :
    Scalar.select (Ideal.cmp .ogt x 0) x (1 * (Ideal.exp (Scalar.select (Ideal.cmp .ogt x 0) 0 x) - 1)) = elu x := by
  unfold elu
  by_cases hc : Ideal.cmp .ogt x 0 = 1#1
  · rw [hc, select_one, select_one]
  · rw [eq_zero_of_ne_one hc, select_zero, select_zero, select_zero, one_mul]

/-! ## The two spellings of ELU on arrays, read at an index -/

section Spellings
variable {s : Shape}

/-- The kernel's spelling, `x` where `x > 0` else `exp x − 1` over splat constants, read at an index. -/
theorem elu_kernel_apply (Y : FVec Ideal s .f32) (j : s.Idx) :
    select (cmpf .ogt Y (broadcast s (FloatOps.ofBits (F := Ideal) .f32 0x00000000#32))) Y
        (subf (exp Y) (broadcast s (FloatOps.ofBits (F := Ideal) .f32 0x3F800000#32))) j = elu (Y j) := by
  show Scalar.select (Ideal.cmp .ogt (Y j) (Ideal.ofBits .f32 0x00000000#32)) (Y j)
      (Ideal.exp (Y j) - Ideal.ofBits .f32 0x3F800000#32) = _
  rw [Ideal.ofBits_zero_f32, Ideal.ofBits_one_f32]
  rfl

/-- The host's spelling, `x` where `x > 0` else `1 · expm1 (0 where x > 0 else x)` over broadcast scalars, read at an
    index. -/
theorem elu_host_apply (hb : (⟨0, ![]⟩ : Shape).BroadcastsInDim s ![]) (Y : FVec Ideal s .f32) (j : s.Idx) :
    select (cmpf .ogt Y (broadcastInDim s ![] hb (constant (F := Ideal) ⟨0, ![]⟩ .f32 0x00000000#32))) Y
        (mulf (broadcastInDim s ![] hb (constant (F := Ideal) ⟨0, ![]⟩ .f32 0x3F800000#32))
          (Host.expm1 (select (cmpf .ogt Y (broadcastInDim s ![] hb (constant (F := Ideal) ⟨0, ![]⟩ .f32 0x00000000#32)))
            (broadcastInDim s ![] hb (id (constant (F := Ideal) ⟨0, ![]⟩ .f32 0x00000000#32))) Y))) j = elu (Y j) := by
  show Scalar.select (Ideal.cmp .ogt (Y j) (Ideal.ofBits .f32 0x00000000#32)) (Y j)
      (Ideal.ofBits .f32 0x3F800000#32 * (Ideal.exp (Scalar.select (Ideal.cmp .ogt (Y j) (Ideal.ofBits .f32 0x00000000#32))
        (Ideal.ofBits .f32 0x00000000#32) (Y j)) - 1)) = _
  rw [Ideal.ofBits_zero_f32, Ideal.ofBits_one_f32]
  exact elu_guarded (Y j)

end Spellings

end Idealize.ShloMosaic.DenseLayer

end
-- ==== Proof.Pay2.lean ====
/-
  The body of the main kernel read at an entry, over the extended reals: from a block of 512 pixel rows x and the
  normalised slots a it writes the attention rows (scores against the slots, softmax, soft threshold, division by the
  floored sum of absolute values) and those rows against the columns of a.
-/
import proofs.«131549_j58806692217158_1_alg».proof.Proof.Gen.KernelIdeal.Skeleton
import proofs.«131549_j58806692217158_1_alg».proof.Proof.Spec
import proofs.«131549_j58806692217158_1_alg».proof.Proof.LibRowOps
import proofs.«131549_j58806692217158_1_alg».proof.Proof.LibMatmulRowsByRows
import proofs.«131549_j58806692217158_1_alg».proof.Proof.LibDenseLayer
import Idealize.ShloMosaic.PureOps.Ideal.Laws
import Idealize.ShloMosaic.Lib.ValueIdx
import Idealize.ShloMosaic.Lib.Pipeline.Value

noncomputable section

namespace Cert.KernelIdeal.Pay

open Idealize.ShloMosaic Idealize.ShloMosaic.ValueIdx Cert.KernelIdeal Cert.KernelIdeal.Gen

/-- Row p of the block's scores against the slots: the normalised row p of x against each row of a. -/
def blockScore (x : Vec Ideal S512x512 .f32) (a : Vec Ideal S2000x512 .bf16) (p : Fin 512) (m : Fin 2000) : EReal :=
  ∑ l : Fin 512, Ideal.div (x (ix2 p l)) (Cert.Spec.nrm fun k : Fin 512 => x (ix2 p k)) * a (ix2 m l)

/-- The slots as the kernel re-reads them are the slots. -/
theorem pay2_eq (a : Vec Ideal S2000x512 .bf16) : k2_pay2 (F := Ideal) a = a := by
  unfold k2_pay2
  exact shapeCast_self _ _

/-! ## The stages of the body, each over a variable operand -/

/-- Every row's Euclidean norm, floored, repeated along the row. -/
def normB (x : FVec Ideal S512x512 .f32) : FVec Ideal S512x512 .f32 :=
  broadcastTo S512x512
    (maximumf
      (sqrt (shapeCast S512x1
        (multiReduction (F := Ideal) .add [1] S512 (mulf x x) 0x00000000#32 reduces_S512x512_S512 (.inl rfl) rfl)
        shapeCasts_S512_S512x1))
      (broadcast S512x1 (Scalar.ofBits (F := Ideal) .f32 0x2B8CBCCC#32)))
    broadcasts_S512x1_S512x512

/-- Every row's maximum, from minus infinity, repeated along the row. -/
def maxB (s : FVec Ideal S512x2000 .f32) : FVec Ideal S512x2000 .f32 :=
  broadcastTo S512x2000
    (shapeCast S512x1
      (multiReduction (F := Ideal) .maximumf [1] S512 s 0xFF800000#32 reduces_S512x2000_S512 (.inl rfl) rfl)
      shapeCasts_S512_S512x1)
    broadcasts_S512x1_S512x2000

/-- Every row's sum, repeated along the row. -/
def sumB (e : FVec Ideal S512x2000 .f32) : FVec Ideal S512x2000 .f32 :=
  broadcastTo S512x2000
    (shapeCast S512x1
      (multiReduction (F := Ideal) .add [1] S512 e 0x00000000#32 reduces_S512x2000_S512 (.inl rfl) rfl)
      shapeCasts_S512_S512x1)
    broadcasts_S512x1_S512x2000

/-- Every row's sum, floored, repeated along the row. -/
def floorSumB (e : FVec Ideal S512x2000 .f32) : FVec Ideal S512x2000 .f32 :=
  broadcastTo S512x2000
    (maximumf
      (shapeCast S512x1
        (multiReduction (F := Ideal) .add [1] S512 e 0x00000000#32 reduces_S512x2000_S512 (.inl rfl) rfl)
        shapeCasts_S512_S512x1)
      (broadcast S512x1 (Scalar.ofBits (F := Ideal) .f32 0x2B8CBCCC#32)))
    broadcasts_S512x1_S512x2000

/-- The softmax of every row: the exponentials of the entries less the row's maximum, over their sum. -/
def softmaxB (s : FVec Ideal S512x2000 .f32) : FVec Ideal S512x2000 .f32 :=
  divf (exp (subf s (maxB s))) (sumB (exp (subf s (maxB s))))

/-- The soft threshold of every entry. -/
def shrinkB (q : FVec Ideal S512x2000 .f32) : FVec Ideal S512x2000 .f32 :=
  select (cmpf .ogt q (broadcast S512x2000 (Scalar.ofBits (F := Ideal) .f32 0x3B23D70A#32)))
    (subf q (broadcast S512x2000 (Scalar.ofBits (F := Ideal) .f32 0x3B23D70A#32)))
    (select (cmpf .olt q (broadcast S512x2000 (Scalar.ofBits (F := Ideal) .f32 0xBB23D70A#32)))
      (addf q (broadcast S512x2000 (Scalar.ofBits (F := Ideal) .f32 0x3B23D70A#32)))
      (broadcast S512x2000 (Scalar.ofBits (F := Ideal) .f32 0x00000000#32)))

/-- Every entry over the floored sum of the absolute values of its row. -/
def attB (r : FVec Ideal S512x2000 .f32) : FVec Ideal S512x2000 .f32 :=
  divf r (floorSumB (absf r))

/-- The scores of the rows of x, each over its floored norm, against the rows of a. -/
def scoreB (x : FVec Ideal S512x512 .f32) (a : FVec Ideal S2000x512 .bf16) : FVec Ideal S512x2000 .f32 :=
  matmul dot_S512x512_S2000x512_S512x2000_1_1_0_0_n_n none (truncf .bf16 (divf x (normB x)) bitsLt_bf16_f32) a
    (constant (F := Ideal) S512x2000 .f32 0x00000000#32)

/-- The body is the composition of the stages. -/
theorem pay3_eq (x : Vec Ideal S512x512 .f32) (a : Vec Ideal S2000x512 .bf16) :
    k2_pay3 (F := Ideal) x a
      = attB (shrinkB (softmaxB (scoreB (shapeCast S512x512 x shapeCasts_S512x512_S512x512) (k2_pay2 (F := Ideal) a)))) := rfl

/-! ## Each stage read at an entry -/

/-- The floored norm along row p is the floored norm of row p. -/
theorem normB_apply (x : FVec Ideal S512x512 .f32) (p l : Fin 512) :
    normB x (ix2 p l) = Cert.Spec.nrm fun k : Fin 512 => x (ix2 p k) := by
  unfold normB
  refine (RowOps.broadcastTo_a1_ab_apply _ _ p l).trans ?_
  refine congrArg (fun z : EReal => max (Ideal.sqrt z) Cert.Spec.eps) ?_
  refine (RowOps.shapeCast_a_a1_apply _ _ p 0).trans ?_
  exact RowOps.multiReduction_add_row _ _ _ _ _ p

/-- The maximum along row p is the maximum of row p. -/
theorem maxB_apply (s : FVec Ideal S512x2000 .f32) (p : Fin 512) (c : Fin 2000) :
    maxB s (ix2 p c) = Cert.Spec.rowMax fun j : Fin 2000 => s (ix2 p j) := by
  unfold maxB
  refine (RowOps.broadcastTo_a1_ab_apply _ _ p c).trans ?_
  refine (RowOps.shapeCast_a_a1_apply _ _ p 0).trans ?_
  exact RowOps.multiReduction_maximumf_row _ _ _ _ _ p

/-- The sum along row p is the sum of row p. -/
theorem sumB_apply (e : FVec Ideal S512x2000 .f32) (p : Fin 512) (c : Fin 2000) :
    sumB e (ix2 p c) = ∑ j : Fin 2000, e (ix2 p j) := by
  unfold sumB
  refine (RowOps.broadcastTo_a1_ab_apply _ _ p c).trans ?_
  refine (RowOps.shapeCast_a_a1_apply _ _ p 0).trans ?_
  exact RowOps.multiReduction_add_row _ _ _ _ _ p

/-- The floored sum along row p is the floored sum of row p. -/
theorem floorSumB_apply (e : FVec Ideal S512x2000 .f32) (p : Fin 512) (c : Fin 2000) :
    floorSumB e (ix2 p c) = max (∑ j : Fin 2000, e (ix2 p j)) Cert.Spec.eps := by
  unfold floorSumB
  refine (RowOps.broadcastTo_a1_ab_apply _ _ p c).trans ?_
  refine congrArg (fun z : EReal => max z Cert.Spec.eps) ?_
  refine (RowOps.shapeCast_a_a1_apply _ _ p 0).trans ?_
  exact RowOps.multiReduction_add_row _ _ _ _ _ p

/-- The softmax of the rows at (p, m) is the softmax of row p at m. -/
theorem softmaxB_apply (s : FVec Ideal S512x2000 .f32) (p : Fin 512) (m : Fin 2000) :
    softmaxB s (ix2 p m) = Cert.Spec.softmaxRow (fun j : Fin 2000 => s (ix2 p j)) m := by
  have hx : ∀ j : Fin 2000, exp (subf s (maxB s)) (ix2 p j)
      = Ideal.exp (s (ix2 p j) - Cert.Spec.rowMax fun j : Fin 2000 => s (ix2 p j)) := fun j =>
    congrArg (fun z : EReal => Ideal.exp (s (ix2 p j) - z)) (maxB_apply s p j)
  have hs : sumB (exp (subf s (maxB s))) (ix2 p m)
      = ∑ j : Fin 2000, Ideal.exp (s (ix2 p j) - Cert.Spec.rowMax fun j : Fin 2000 => s (ix2 p j)) :=
    (sumB_apply _ p m).trans (Finset.sum_congr rfl fun j _ => hx j)
  show Ideal.div (exp (subf s (maxB s)) (ix2 p m)) (sumB (exp (subf s (maxB s))) (ix2 p m)) = _
  rw [hx m, hs]
  rfl

/-- The soft threshold of the entries is the soft threshold of each entry. -/
theorem shrinkB_apply (q : FVec Ideal S512x2000 .f32) (i : S512x2000.Idx) :
    shrinkB q i = Cert.Spec.shrink (q i) := rfl

/-- An entry over its row's floored sum of absolute values, as a function of the row. -/
def attOf (f : Fin 2000 → EReal) (m : Fin 2000) : EReal :=
  Ideal.div (f m) (max (∑ j : Fin 2000, max (f j) (-(f j))) Cert.Spec.eps)

theorem attRow_eq (s : Fin 2000 → EReal) (m : Fin 2000) : Cert.Spec.attRow s m = attOf (Cert.Spec.shr s) m := rfl

/-- The last stage at (p, m) is that function of row p. -/
theorem attB_apply (r : FVec Ideal S512x2000 .f32) (p : Fin 512) (m : Fin 2000) :
    attB r (ix2 p m) = attOf (fun j : Fin 2000 => r (ix2 p j)) m := by
  show Ideal.div (r (ix2 p m)) (floorSumB (absf r) (ix2 p m)) = _
  rw [floorSumB_apply]
  rfl

/-- The three last stages at (p, m) are the attention row of row p of the scores. -/
theorem att_of_rows (S : FVec Ideal S512x2000 .f32) (p : Fin 512) (m : Fin 2000) :
    attB (shrinkB (softmaxB S)) (ix2 p m) = Cert.Spec.attRow (fun j : Fin 2000 => S (ix2 p j)) m := by
  have h : (fun j : Fin 2000 => shrinkB (softmaxB S) (ix2 p j)) = Cert.Spec.shr (fun j : Fin 2000 => S (ix2 p j)) :=
    funext fun j => congrArg Cert.Spec.shrink (softmaxB_apply S p j)
  exact (attB_apply _ p m).trans (congrArg (fun f => attOf f m) h)

/-- The scores at (p, j): the normalised row p of x against row j of a. -/
theorem scoreB_apply (x : FVec Ideal S512x512 .f32) (a : FVec Ideal S2000x512 .bf16) (p : Fin 512) (j : Fin 2000) :
    scoreB x a (ix2 p j) = blockScore x a p j := by
  unfold scoreB blockScore
  refine (MatmulRowsByRows.matmul_rows_by_rows_apply _ none _ _ p j).trans ?_
  refine Finset.sum_congr rfl fun l _ => ?_
  exact congrArg (fun z : EReal => Ideal.div (x (ix2 p l)) z * a (ix2 j l)) (normB_apply x p l)

/-- The attention block at (p, m): the attention row of row p's scores. -/
theorem pay3_apply (x : Vec Ideal S512x512 .f32) (a : Vec Ideal S2000x512 .bf16) (p : Fin 512) (m : Fin 2000) :
    k2_pay3 (F := Ideal) x a (ix2 p m) = Cert.Spec.attRow (fun j => blockScore x a p j) m := by
  have hx : shapeCast S512x512 x shapeCasts_S512x512_S512x512 = x := shapeCast_self _ _
  refine (congrFun (pay3_eq x a) (ix2 p m)).trans ?_
  rw [hx, pay2_eq]
  refine (att_of_rows _ p m).trans ?_
  exact congrArg (fun s => Cert.Spec.attRow s m) (funext fun j => scoreB_apply x a p j)

/-- The output block at (p, q): row p of the attention block v against column q of the slots a. -/
theorem pay1_apply2 (a : FVec Ideal S2000x512 .bf16) (v : FVec Ideal S512x2000 .f32) (p : Fin 512) (q : Fin 512) :
    k2_pay1 (F := Ideal) a v (ix2 p q) = ∑ m : Fin 2000, v (ix2 p m) * a (ix2 m q) := by
  unfold k2_pay1
  exact DenseLayer.matmul_rows_apply _ none _ _ p q

end Cert.KernelIdeal.Pay

end
-- ==== Proof.KI.Arr2.lean ====
/-
  What the main kernel leaves in its two result arrays over the extended reals: point t writes rows 512 t … 512 t + 511
  of both; a row of either depends on that pixel row and on the whole array of normalised slots only; the 64 blocks
  cover both arrays.
-/
import proofs.«131549_j58806692217158_1_alg».proof.Proof.KI.Reg2
import proofs.«131549_j58806692217158_1_alg».proof.Proof.Pay2
import proofs.«131549_j58806692217158_1_alg».proof.Proof.Spec
import Idealize.ShloMosaic.Lib.Pipeline.Value
import Idealize.ShloMosaic.Lib.ValueIdx

set_option maxRecDepth 16384

noncomputable section

namespace Cert.KernelIdeal.HandValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

-- the TensorCore's buffer contents when the region is entered, over the extended reals
variable (V : (c : Dev nD) → (b : Ref sig .tc) → Buf (Elt Ideal) ((c : Thread nD τ).loc b))

/-! ## The body's two payloads at an entry, from rows of the two arrays -/

/-- Row p of a block's scores is row r of the array's scores, when row p of the block is row r of the pixel array and
    the block of slots is the slots' array. -/
theorem blockScore_eq (x0 : Vec Ideal S512x512 .f32) (x1 : Vec Ideal S2000x512 .bf16)
    (XF : S32768x512.Idx → EReal) (A : S2000x512.Idx → EReal) (r : Fin 32768) (p : Fin 512)
    (h0 : ∀ l : Fin 512, x0 (ix2 p l) = XF (ix2 r l))
    (h1 : ∀ (m : Fin 2000) (l : Fin 512), x1 (ix2 m l) = A (ix2 m l)) (m : Fin 2000) :
    Pay.blockScore x0 x1 p m = Cert.Spec.score XF A r m := by
  unfold Pay.blockScore Cert.Spec.score Cert.Spec.xn
  simp only [h0, h1]

/-- So the attention block at (p, m) is pixel r's attention on slot m. -/
theorem att_block (x0 : Vec Ideal S512x512 .f32) (x1 : Vec Ideal S2000x512 .bf16)
    (XF : S32768x512.Idx → EReal) (A : S2000x512.Idx → EReal) (r : Fin 32768) (p : Fin 512)
    (h0 : ∀ l : Fin 512, x0 (ix2 p l) = XF (ix2 r l))
    (h1 : ∀ (m : Fin 2000) (l : Fin 512), x1 (ix2 m l) = A (ix2 m l)) (m : Fin 2000) :
    k2_pay3 (F := Ideal) x0 x1 (ix2 p m) = Cert.Spec.att XF A r m := by
  rw [Pay.pay3_apply]
  unfold Cert.Spec.att
  exact congrArg (fun s => Cert.Spec.attRow s m) (funext fun j => blockScore_eq x0 x1 XF A r p h0 h1 j)

/-- and the output block at (p, q) is pixel r's attention row against column q of the slots. -/
theorem out_block (x0 : Vec Ideal S512x512 .f32) (x1 : Vec Ideal S2000x512 .bf16)
    (XF : S32768x512.Idx → EReal) (A : S2000x512.Idx → EReal) (r : Fin 32768) (p : Fin 512)
    (h0 : ∀ l : Fin 512, x0 (ix2 p l) = XF (ix2 r l))
    (h1 : ∀ (m : Fin 2000) (l : Fin 512), x1 (ix2 m l) = A (ix2 m l)) (q : Fin 512) :
    k2_pay1 (F := Ideal) (k2_pay2 x1) (k2_pay3 x0 x1) (ix2 p q) = ∑ m : Fin 2000, Cert.Spec.att XF A r m * A (ix2 m q) := by
  rw [Pay.pay1_apply2, Pay.pay2_eq]
  refine Finset.sum_congr rfl fun m _ => ?_
  rw [att_block x0 x1 XF A r p h0 h1 m, h1]

/-- The attention block of point n at an index j is the attention array at the index i with row 512 n + the row of j. -/
theorem att_at (x0 : Vec Ideal S512x512 .f32) (x1 : Vec Ideal S2000x512 .bf16)
    (XF : S32768x512.Idx → EReal) (A : S2000x512.Idx → EReal) (n : ℕ)
    (h0 : ∀ (p l : Fin 512) (k : S32768x512.Idx), (k 0).val = 512 * n + p.val → (k 1).val = l.val → x0 (ix2 p l) = XF k)
    (h1 : ∀ (m : Fin 2000) (l : Fin 512), x1 (ix2 m l) = A (ix2 m l))
    (j : S512x2000.Idx) (i : S32768x2000.Idx) (hi0 : (i 0).val = 512 * n + (j 0).val) (hi1 : (i 1).val = (j 1).val) :
    k2_pay3 (F := Ideal) x0 x1 j = Cert.Spec.attK XF A i := by
  obtain ⟨p, m, rfl⟩ : ∃ (p : Fin 512) (m : Fin 2000), j = ix2 p m := ⟨j 0, j 1, eq_ix2 j⟩
  obtain ⟨r, m', rfl⟩ : ∃ (r : Fin 32768) (m' : Fin 2000), i = ix2 r m' := ⟨i 0, i 1, eq_ix2 i⟩
  have e1 : m' = m := Fin.ext hi1
  rw [e1, Cert.Spec.attK_ix2]
  exact att_block x0 x1 XF A r p (fun l => h0 p l (ix2 r l) hi0 rfl) h1 m

/-- The output block of point n at an index j is the output array at the index i with row 512 n + the row of j. -/
theorem out_at (x0 : Vec Ideal S512x512 .f32) (x1 : Vec Ideal S2000x512 .bf16)
    (XF : S32768x512.Idx → EReal) (A : S2000x512.Idx → EReal) (n : ℕ)
    (h0 : ∀ (p l : Fin 512) (k : S32768x512.Idx), (k 0).val = 512 * n + p.val → (k 1).val = l.val → x0 (ix2 p l) = XF k)
    (h1 : ∀ (m : Fin 2000) (l : Fin 512), x1 (ix2 m l) = A (ix2 m l))
    (j : S512x512.Idx) (i : S32768x512.Idx) (hi0 : (i 0).val = 512 * n + (j 0).val) (hi1 : (i 1).val = (j 1).val) :
    k2_pay1 (F := Ideal) (k2_pay2 x1) (k2_pay3 x0 x1) j = Cert.Spec.outK XF A i := by
  obtain ⟨p, q, rfl⟩ : ∃ (p : Fin 512) (q : Fin 512), j = ix2 p q := ⟨j 0, j 1, eq_ix2 j⟩
  obtain ⟨r, q', rfl⟩ : ∃ (r : Fin 32768) (q' : Fin 512), i = ix2 r q' := ⟨i 0, i 1, eq_ix2 i⟩
  have e1 : q' = q := Fin.ext hi1
  rw [e1, Cert.Spec.outK_ix2]
  exact out_block x0 x1 XF A r p (fun l => h0 p l (ix2 r l) hi0 rfl) h1 q

/-! ## The windows' blocks as rows of their arrays -/

/-- The block indices of the four windows at point t: the pixel rows', the output rows' and the attention rows' blocks
    are block t down the rows; the slots' block is the whole array. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- The pixel-rows block at point t is rows 512 t … 512 t + 511 of the pixel array. -/
theorem iblk2_0_apply (c : Dev nD) (t : Fin cfg2.N) (x : S512x512.Idx) (k : S32768x512.Idx)
    (hk0 : (k 0).val = 512 * t.val + (x 0).val) (hk1 : (k 1).val = (x 1).val) :
    (iblk2 (F := Ideal) V c 0 t : Vec Ideal S512x512 .f32) x = (V c main_v1 : S32768x512.Idx → EReal) k := by
  obtain ⟨e0, e1, -⟩ := idx_facts2 t
  unfold iblk2
  rw [View.read_apply]
  show V c main_v1 _ = V c main_v1 _
  congr 1
  funext a
  apply Fin.ext
  match a with
  | ⟨0, _⟩ => show win2_0.index t (0 : Fin 2) * 512 + 1 * (x 0).val = (k 0).val; rw [e0, hk0]; omega
  | ⟨1, _⟩ => show win2_0.index t (1 : Fin 2) * 512 + 1 * (x 1).val = (k 1).val; rw [e1, hk1]; omega

/-- The slots' block at every point is the slots' array. -/
theorem iblk2_1_apply (c : Dev nD) (t : Fin cfg2.N) (x : S2000x512.Idx) :
    (iblk2 (F := Ideal) V c 1 t : Vec Ideal S2000x512 .bf16) x = (V c main_v2 : S2000x512.Idx → EReal) x := by
  obtain ⟨-, -, e2, e3, -⟩ := idx_facts2 t
  unfold iblk2
  rw [View.read_apply]
  show V c main_v2 _ = V c main_v2 _
  congr 1
  funext a
  apply Fin.ext
  match a with
  | ⟨0, _⟩ => show win2_1.index t (0 : Fin 2) * 2000 + 1 * (x 0).val = (x 0).val; rw [e2]; omega
  | ⟨1, _⟩ => show win2_1.index t (1 : Fin 2) * 512 + 1 * (x 1).val = (x 1).val; rw [e3]; omega

/-! ## What each point writes back, and the two arrays after the run -/

/-- What point t writes back of the attention rows is block t of the attention array of the entry contents. -/
theorem flushed2_3_eq (c : Dev nD) (t : Fin cfg2.N) :
    (dat2 (F := Ideal) V c).flushed 3 t
      = ((cfg2.win 3).blk t).view.read (Elt Ideal) (Cert.Spec.attK (V c main_v1) (V c main_v2)) := by
  show (cfg2.win 3).cut (grid2.coords t) ((dat2 (F := Ideal) V c).after 3 t) = _
  rw [after2_3, out2_3_eq]
  obtain ⟨-, -, -, -, -, -, e6, e7⟩ := idx_facts2 t
  funext j
  show k2_pay3 (F := Ideal) (iblk2 (F := Ideal) V c 0 t) (iblk2 (F := Ideal) V c 1 t) j
    = Cert.Spec.attK (V c main_v1) (V c main_v2) (((cfg2.win 3).blk t).view.emb j)
  refine att_at (iblk2 (F := Ideal) V c 0 t) (iblk2 (F := Ideal) V c 1 t) (V c main_v1) (V c main_v2) t.val
    (fun p l k hk0 hk1 => iblk2_0_apply V c t (ix2 p l) k hk0 hk1) (fun m l => iblk2_1_apply V c t (ix2 m l))
    j (((cfg2.win 3).blk t).view.emb j) ?_ ?_
  · show win2_3.index t (0 : Fin 2) * 512 + 1 * (j 0).val = 512 * t.val + (j 0).val; rw [e6]; omega
  · show win2_3.index t (1 : Fin 2) * 2000 + 1 * (j 1).val = (j 1).val; rw [e7]; omega

/-- What point t writes back of the output rows is block t of the output array of the entry contents. -/
theorem flushed2_2_eq (c : Dev nD) (t : Fin cfg2.N) :
    (dat2 (F := Ideal) V c).flushed 2 t
      = ((cfg2.win 2).blk t).view.read (Elt Ideal) (Cert.Spec.outK (V c main_v1) (V c main_v2)) := by
  show (cfg2.win 2).cut (grid2.coords t) ((dat2 (F := Ideal) V c).after 2 t) = _
  rw [after2_2, out2_2_eq]
  obtain ⟨-, -, -, -, e4, e5, -⟩ := idx_facts2 t
  funext j
  show k2_pay1 (F := Ideal) (k2_pay2 (iblk2 (F := Ideal) V c 1 t)) (k2_pay3 (iblk2 (F := Ideal) V c 0 t) (iblk2 (F := Ideal) V c 1 t)) j
    = Cert.Spec.outK (V c main_v1) (V c main_v2) (((cfg2.win 2).blk t).view.emb j)
  refine out_at (iblk2 (F := Ideal) V c 0 t) (iblk2 (F := Ideal) V c 1 t) (V c main_v1) (V c main_v2) t.val
    (fun p l k hk0 hk1 => iblk2_0_apply V c t (ix2 p l) k hk0 hk1) (fun m l => iblk2_1_apply V c t (ix2 m l))
    j (((cfg2.win 2).blk t).view.emb j) ?_ ?_
  · show win2_2.index t (0 : Fin 2) * 512 + 1 * (j 0).val = 512 * t.val + (j 0).val; rw [e4]; omega
  · show win2_2.index t (1 : Fin 2) * 512 + 1 * (j 1).val = (j 1).val; rw [e5]; omega

/-- An index of the attention array is in point t's block iff each coordinate is in the block's range on its axis. -/
theorem mem_blk2_3 (t : Fin cfg2.N) (i : S32768x2000.Idx) :
    i ∈ ((cfg2.win 3).blk t).view.set ↔ ∀ a : Fin 2, win2_3.index t a * S512x2000.size a ≤ (i a).val
      ∧ (i a).val < win2_3.index t a * S512x2000.size a + S512x2000.size a := by
  show i ∈ ((View.whole main_v4_1).slice (win2_3.rect t)).set ↔ _
  rw [View.set_slice_whole, Rect.mem_set_unit]
  exact Iff.rfl

/-- The same of the output array. -/
theorem mem_blk2_2 (t : Fin cfg2.N) (i : S32768x512.Idx) :
    i ∈ ((cfg2.win 2).blk t).view.set ↔ ∀ a : Fin 2, win2_2.index t a * S512x512.size a ≤ (i a).val
      ∧ (i a).val < win2_2.index t a * S512x512.size a + S512x512.size a := by
  show i ∈ ((View.whole main_v4_0).slice (win2_2.rect t)).set ↔ _
  rw [View.set_slice_whole, Rect.mem_set_unit]
  exact Iff.rfl

/-- Row r of the attention array is in the block of point r / 512. -/
theorem covered2_3 (i : S32768x2000.Idx) :
    ∃ t : Fin cfg2.N, (cfg2.win 3).flush t = true ∧ i ∈ ((cfg2.win 3).blk t).view.set := by
  have hi0 : (i 0).val < 32768 := (i 0).isLt
  have hi1 : (i 1).val < 2000 := (i 1).isLt
  have hN : cfg2.N = 64 := N_2
  let t : Fin cfg2.N := ⟨(i 0).val / 512, by rw [hN]; omega⟩
  obtain ⟨-, -, -, -, -, -, e6, e7⟩ := idx_facts2 t
  have ht : t.val = (i 0).val / 512 := rfl
  refine ⟨t, flush2_3 t, ?_⟩
  rw [mem_blk2_3]
  intro a
  match a with
  | ⟨0, _⟩ => show win2_3.index t (0 : Fin 2) * 512 ≤ (i 0).val ∧ (i 0).val < win2_3.index t (0 : Fin 2) * 512 + 512; rw [e6, ht]; omega
  | ⟨1, _⟩ => show win2_3.index t (1 : Fin 2) * 2000 ≤ (i 1).val ∧ (i 1).val < win2_3.index t (1 : Fin 2) * 2000 + 2000; rw [e7]; omega

/-- Row r of the output array is in the block of point r / 512. -/
theorem covered2_2 (i : S32768x512.Idx) :
    ∃ t : Fin cfg2.N, (cfg2.win 2).flush t = true ∧ i ∈ ((cfg2.win 2).blk t).view.set := by
  have hi0 : (i 0).val < 32768 := (i 0).isLt
  have hi1 : (i 1).val < 512 := (i 1).isLt
  have hN : cfg2.N = 64 := N_2
  let t : Fin cfg2.N := ⟨(i 0).val / 512, by rw [hN]; omega⟩
  obtain ⟨-, -, -, -, e4, e5, -⟩ := idx_facts2 t
  have ht : t.val = (i 0).val / 512 := rfl
  refine ⟨t, flush2_2 t, ?_⟩
  rw [mem_blk2_2]
  intro a
  match a with
  | ⟨0, _⟩ => show win2_2.index t (0 : Fin 2) * 512 ≤ (i 0).val ∧ (i 0).val < win2_2.index t (0 : Fin 2) * 512 + 512; rw [e4, ht]; omega
  | ⟨1, _⟩ => show win2_2.index t (1 : Fin 2) * 512 ≤ (i 1).val ∧ (i 1).val < win2_2.index t (1 : Fin 2) * 512 + 512; rw [e5]; omega

/-- The attention array of the region, from the pixel rows and the slots' array it was handed. -/
theorem arr2_att (c : Dev nD) :
    (dat2 (F := Ideal) V c).arrAt 3 cfg2.N = Cert.Spec.attK (V c main_v1) (V c main_v2) :=
  (dat2 (F := Ideal) V c).arrAt_eq_of_cover 3 (Cert.Spec.attK (V c main_v1) (V c main_v2))
    (fun t _ => flushed2_3_eq V c t) (covered2_3)

/-- The output array of the region. -/
theorem arr2_out (c : Dev nD) :
    (dat2 (F := Ideal) V c).arrAt 2 cfg2.N = Cert.Spec.outK (V c main_v1) (V c main_v2) :=
  (dat2 (F := Ideal) V c).arrAt_eq_of_cover 2 (Cert.Spec.outK (V c main_v1) (V c main_v2))
    (fun t _ => flushed2_2_eq V c t) (covered2_2)

end Cert.KernelIdeal.HandValue

end
-- ==== Proof.KValue.lean ====
/-
  The three results of the kernel program over the extended reals, as functions of the two arguments. Reading the last
  boundary's contents backwards through the program: the results are re-layouts of region 2's two arrays and region 1's
  array; region 2 read the pixel-feature matrix (the first argument transposed and flattened, which no region writes)
  and the normalised slots; region 1 read the normalised slots; region 0 wrote them from the second argument.
-/
import proofs.«131549_j58806692217158_1_alg».proof.Proof.KI.Run
import proofs.«131549_j58806692217158_1_alg».proof.Proof.KI.Arr0
import proofs.«131549_j58806692217158_1_alg».proof.Proof.KI.Arr1
import proofs.«131549_j58806692217158_1_alg».proof.Proof.KI.Arr2
import proofs.«131549_j58806692217158_1_alg».proof.Proof.Spec
import Idealize.ShloMosaic.Lib.StableHlo.Run

set_option maxRecDepth 16384

noncomputable section

namespace Cert.KernelIdeal.HandValue

open Idealize.ShloMosaic Idealize.ShloMosaic.TcCoe Idealize.ShloMosaic.ValueIdx Idealize.ShloMosaic.StableHlo
open Idealize.SL Idealize.SL.Sem
open Cert.KernelIdeal Cert.KernelIdeal.Gen Cert.KernelIdeal.Hand

/-- The pixel-feature matrix of the first argument: channels moved last, then one row per pixel. -/
def xfOf (x0 : (⟨S8x512x64x64, .f32⟩ : BufTy).Contents (Elt Ideal)) : (⟨S32768x512, .f32⟩ : BufTy).Contents (Elt Ideal) :=
  shapeCast _ (transpose S8x64x64x512 [0, 2, 3, 1] x0 transposes_S8x512x64x64_S8x64x64x512_0_2_3_1) shapeCasts_S8x64x64x512_S32768x512

/-- The output rows laid back out as [8, 512, 64, 64]. -/
def outLayout (y : (⟨S32768x512, .f32⟩ : BufTy).Contents (Elt Ideal)) : (⟨S8x512x64x64, .f32⟩ : BufTy).Contents (Elt Ideal) :=
  transpose S8x512x64x64 [0, 3, 1, 2] (shapeCast _ y shapeCasts_S32768x512_S8x64x64x512) transposes_S8x64x64x512_S8x512x64x64_0_3_1_2

/-- The attention rows laid back out as [8, 2000, 64, 64]. -/
def attLayout (y : (⟨S32768x2000, .f32⟩ : BufTy).Contents (Elt Ideal)) : (⟨S8x2000x64x64, .f32⟩ : BufTy).Contents (Elt Ideal) :=
  transpose S8x2000x64x64 [0, 3, 1, 2] (shapeCast _ y shapeCasts_S32768x2000_S8x64x64x2000) transposes_S8x64x64x2000_S8x2000x64x64_0_3_1_2

variable (m : (ℓ : Loc nD τ sig) → Buf (Elt Ideal) ℓ) (ρ : Dev nD → PrngReg)

/-! ## Before the regions -/

theorem W1_main_v1 (c : Dev nD) : W1 m ρ c (Proc.devRef .tc main_v1) = xfOf (m ((c : Thread nD τ).loc main_arg0)) := by
  show StableHlo.after hostOps0 (fun b => m (c, b)) (Proc.devRef .tc main_v1) = _
  after_results
  rfl

theorem W1_main_arg1 (c : Dev nD) : W1 m ρ c (Proc.devRef .tc main_arg1) = m ((c : Thread nD τ).loc main_arg1) :=
  (StableHlo.after_of_writes_sub hostOps0 _ hostOps0_writes (by decide)).trans rfl

/-! ## Region 0: the normalised slots -/

theorem W2_main_v2 (c : Dev nD) : W2 m ρ c (Proc.devRef .tc main_v2) = Cert.Spec.wnS (m ((c : Thread nD τ).loc main_arg1)) := by
  refine (W2_arr m ρ c 1).trans ((arr0 (V1 m ρ) c).trans ?_)
  exact congrArg Cert.Spec.wnS (W1_main_arg1 m ρ c)

theorem W2_main_v1 (c : Dev nD) : W2 m ρ c (Proc.devRef .tc main_v1) = xfOf (m ((c : Thread nD τ).loc main_arg0)) :=
  (W2_of_ne m ρ c main_v1 (by decide)).trans (W1_main_v1 m ρ c)

/-! ## Region 1: the slot alignment -/

theorem W3_main_v3' (c : Dev nD) :
    W3 m ρ c (Proc.devRef .tc main_v3) = Cert.Spec.mmK (Cert.Spec.wnS (m ((c : Thread nD τ).loc main_arg1))) := by
  refine (W3_main_v3 m ρ c).trans ((arr1 (V2 m ρ) c).trans ?_)
  exact congrArg Cert.Spec.mmK (W2_main_v2 m ρ c)

theorem W3_main_v2 (c : Dev nD) : W3 m ρ c (Proc.devRef .tc main_v2) = Cert.Spec.wnS (m ((c : Thread nD τ).loc main_arg1)) :=
  (W3_of_ne m ρ c main_v2 (by decide)).trans (W2_main_v2 m ρ c)

theorem W3_main_v1 (c : Dev nD) : W3 m ρ c (Proc.devRef .tc main_v1) = xfOf (m ((c : Thread nD τ).loc main_arg0)) :=
  (W3_of_ne m ρ c main_v1 (by decide)).trans (W2_main_v1 m ρ c)

/-! ## Region 2: the output rows and the attention rows -/

theorem W4_main_v4_0 (c : Dev nD) : W4 m ρ c (Proc.devRef .tc main_v4_0)
    = Cert.Spec.outK (xfOf (m ((c : Thread nD τ).loc main_arg0))) (Cert.Spec.wnS (m ((c : Thread nD τ).loc main_arg1))) := by
  refine (W4_arr m ρ c 2).trans ((arr2_out (V3 m ρ) c).trans ?_)
  exact congrArg₂ Cert.Spec.outK (W3_main_v1 m ρ c) (W3_main_v2 m ρ c)

theorem W4_main_v4_1 (c : Dev nD) : W4 m ρ c (Proc.devRef .tc main_v4_1)
    = Cert.Spec.attK (xfOf (m ((c : Thread nD τ).loc main_arg0))) (Cert.Spec.wnS (m ((c : Thread nD τ).loc main_arg1))) := by
  refine (W4_arr m ρ c 3).trans ((arr2_att (V3 m ρ) c).trans ?_)
  exact congrArg₂ Cert.Spec.attK (W3_main_v1 m ρ c) (W3_main_v2 m ρ c)

theorem W4_main_v3 (c : Dev nD) :
    W4 m ρ c (Proc.devRef .tc main_v3) = Cert.Spec.mmK (Cert.Spec.wnS (m ((c : Thread nD τ).loc main_arg1))) :=
  (W4_of_ne m ρ c main_v3 (by decide)).trans (W3_main_v3' m ρ c)

/-! ## After the regions: the results -/

theorem W5_main_v6 (c : Dev nD) : W5 m ρ c (Proc.devRef .tc main_v6)
    = outLayout (Cert.Spec.outK (xfOf (m ((c : Thread nD τ).loc main_arg0))) (Cert.Spec.wnS (m ((c : Thread nD τ).loc main_arg1)))) := by
  rw [← W4_main_v4_0 m ρ c]
  show StableHlo.after hostOps3 (W4 m ρ c) (Proc.devRef .tc main_v6) = _
  after_results
  rfl

theorem W5_main_v8 (c : Dev nD) : W5 m ρ c (Proc.devRef .tc main_v8)
    = attLayout (Cert.Spec.attK (xfOf (m ((c : Thread nD τ).loc main_arg0))) (Cert.Spec.wnS (m ((c : Thread nD τ).loc main_arg1)))) := by
  rw [← W4_main_v4_1 m ρ c]
  show StableHlo.after hostOps3 (W4 m ρ c) (Proc.devRef .tc main_v8) = _
  after_results
  rfl

theorem W5_main_v3 (c : Dev nD) :
    W5 m ρ c (Proc.devRef .tc main_v3) = Cert.Spec.mmK (Cert.Spec.wnS (m ((c : Thread nD τ).loc main_arg1))) :=
  (StableHlo.after_of_writes_sub hostOps3 _ hostOps3_writes (by decide)).trans (W4_main_v3 m ρ c)

/-- The run with every result named: the three results as the specification's functions of the arguments, the
    arguments as launched. -/
theorem run_values : θ_run defs (onTc (τ := τ) (main (F := Ideal))) ⟨m, fun _ => 0, ρ⟩ (fun r => ∀ c : Dev nD,
      r.2.mem ((c.tc : Thread nD τ).loc main_v6)
        = outLayout (Cert.Spec.outK (xfOf (m ((c.tc : Thread nD τ).loc main_arg0))) (Cert.Spec.wnS (m ((c.tc : Thread nD τ).loc main_arg1))))
      ∧ r.2.mem ((c.tc : Thread nD τ).loc main_v8)
        = attLayout (Cert.Spec.attK (xfOf (m ((c.tc : Thread nD τ).loc main_arg0))) (Cert.Spec.wnS (m ((c.tc : Thread nD τ).loc main_arg1))))
      ∧ r.2.mem ((c.tc : Thread nD τ).loc main_v3) = Cert.Spec.mmK (Cert.Spec.wnS (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v6 (by decide))).trans (W5_main_v6 m ρ c),
     (h c _ (mem_uc main_v8 (by decide))).trans (W5_main_v8 m ρ c),
     (h c _ (mem_uc main_v3 (by decide))).trans (W5_main_v3 m ρ c),
     (h c _ (mem_uc main_arg0 (by decide))).trans (W5_main_arg0 m ρ c),
     (h c _ (mem_uc main_arg1 (by decide))).trans (W5_main_arg1 m ρ c)⟩) (run_all m ρ)

end Cert.KernelIdeal.HandValue

end
-- ==== Proof.RefSide.lean ====
/-
  The reference's intermediate arrays over the extended reals, entry by entry: its normalised slots, its slot alignment,
  its attention and its output rows are the specification's functions of the pixel-feature matrix (the argument
  transposed and flattened, left as the reference computes it) and of the slots.
-/
import proofs.«131549_j58806692217158_1_alg».proof.Proof.Gen.ReferenceIdeal.Run
import proofs.«131549_j58806692217158_1_alg».proof.Proof.Gen.ReferenceIdeal.Read
import proofs.«131549_j58806692217158_1_alg».proof.Proof.Spec
import proofs.«131549_j58806692217158_1_alg».proof.Proof.LibRowOps
import Idealize.ShloMosaic.PureOps.Ideal.Laws
import Idealize.ShloMosaic.Lib.ValueIdx
import Idealize.ShloMosaic.Lib.Pipeline.Value

set_option maxRecDepth 16384

noncomputable section

namespace Cert.ReferenceIdeal.RefValue

open Idealize.ShloMosaic Idealize.ShloMosaic.ValueIdx Cert.ReferenceIdeal Cert.ReferenceIdeal.Read

/-- Row `p` of the slots divided by its floored Euclidean norm, at column `q`. -/
theorem slotsNormalised_at (x1 : (⟨S2000x512, .f32⟩ : BufTy).Contents (Elt Ideal)) (p : Fin 2000) (q : Fin 512) :
    val_main_v17 (F := Ideal) x1 (ix2 p q) = Cert.Spec.wn x1 p q := by
  have e : ∀ k : Fin 512, idx_main_v11 (idx_main_v12 (idx_main_v16 (ix2 p q))) k = ix2 p k := fun k =>
    funext fun a => Fin.ext (by match a with | ⟨0, _⟩ => rfl | ⟨1, _⟩ => rfl)
  rw [val_main_v17_apply, val_main_v16_apply, val_main_v15_apply, val_main_v13_apply, val_main_v12_apply,
    val_main_v11_apply, val_main_v14_apply, val_main_cst_2_apply, val_main_cst_1_apply]
  simp only [val_main_v10_apply, e, Ideal.ofBits_def, Ideal.mulf_def, Ideal.maximumf_def, Ideal.hostDivf_def,
    Ideal.hostUnary_sqrt_def, Ideal.ofBits_zero_f32, zero_add]
  rfl

/-- Row `t` of the pixel features divided by its floored Euclidean norm, at column `l`. -/
theorem pixelsNormalised_at (x0 : (⟨S8x512x64x64, .f32⟩ : BufTy).Contents (Elt Ideal)) (t : Fin 32768) (l : Fin 512) :
    val_main_v9 (F := Ideal) x0 (ix2 t l) = Cert.Spec.xn (val_main_v1 (F := Ideal) x0) t l := by
  have e : ∀ k : Fin 512, idx_main_v3 (idx_main_v4 (idx_main_v8 (ix2 t l))) k = ix2 t k := fun k =>
    funext fun a => Fin.ext (by match a with | ⟨0, _⟩ => rfl | ⟨1, _⟩ => rfl)
  rw [val_main_v9_apply, val_main_v8_apply, val_main_v7_apply, val_main_v5_apply, val_main_v4_apply,
    val_main_v3_apply, val_main_v6_apply, val_main_cst_0_apply, val_main_cst_apply]
  simp only [val_main_v2_apply, e, Ideal.ofBits_def, Ideal.mulf_def, Ideal.maximumf_def, Ideal.hostDivf_def,
    Ideal.hostUnary_sqrt_def, Ideal.ofBits_zero_f32, zero_add]
  rfl

/-- The score of pixel `t` against slot `m`. -/
theorem score_at (x0 : (⟨S8x512x64x64, .f32⟩ : BufTy).Contents (Elt Ideal)) (x1 : (⟨S2000x512, .f32⟩ : BufTy).Contents (Elt Ideal))
    (t : Fin 32768) (m : Fin 2000) :
    val_main_v18 (F := Ideal) x0 x1 (ix2 t m)
      = Cert.Spec.score (val_main_v1 (F := Ideal) x0) (Cert.Spec.wnS x1) t m := by
  have el : ∀ k : Fin 512, lidx_main_v18 (ix2 t m) k = ix2 t k := fun k =>
    funext fun a => Fin.ext (by match a with | ⟨0, _⟩ => rfl | ⟨1, _⟩ => rfl)
  have er : ∀ k : Fin 512, ridx_main_v18 (ix2 t m) k = ix2 m k := fun k =>
    funext fun a => Fin.ext (by match a with | ⟨0, _⟩ => rfl | ⟨1, _⟩ => rfl)
  rw [val_main_v18_apply]
  simp only [el, er, pixelsNormalised_at, slotsNormalised_at]
  rfl

/-- The Gram matrix of the normalised slots at `(p, q)`. -/
theorem gram_at (x1 : (⟨S2000x512, .f32⟩ : BufTy).Contents (Elt Ideal)) (p q : Fin 2000) :
    val_main_v19 (F := Ideal) x1 (ix2 p q) = Cert.Spec.mmK (Cert.Spec.wnS x1) (ix2 p q) := by
  have el : ∀ k : Fin 512, lidx_main_v19 (ix2 p q) k = ix2 p k := fun k =>
    funext fun a => Fin.ext (by match a with | ⟨0, _⟩ => rfl | ⟨1, _⟩ => rfl)
  have er : ∀ k : Fin 512, ridx_main_v19 (ix2 p q) k = ix2 q k := fun k =>
    funext fun a => Fin.ext (by match a with | ⟨0, _⟩ => rfl | ⟨1, _⟩ => rfl)
  rw [val_main_v19_apply]
  simp only [el, er, slotsNormalised_at]
  rfl

/-- The maximum of pixel `t`'s scores: the fold of `max` from minus infinity is at least its start, so taking the
    maximum with minus infinity once more changes nothing. -/
theorem rowMax_at (x0 : (⟨S8x512x64x64, .f32⟩ : BufTy).Contents (Elt Ideal)) (x1 : (⟨S2000x512, .f32⟩ : BufTy).Contents (Elt Ideal))
    (t : Fin 32768) :
    val_main_v22 (F := Ideal) x0 x1 (ix1 t)
      = Cert.Spec.rowMax (fun j => Cert.Spec.score (val_main_v1 (F := Ideal) x0) (Cert.Spec.wnS x1) t j) := by
  have h20 : val_main_v20 (F := Ideal) x0 x1 (ix1 t)
      = (Finset.univ : Finset (Fin 2000)).fold max (val_main_cst_3 (F := Ideal) (Shape.Idx.first Gen.h_S_))
          (fun l => val_main_v18 (F := Ideal) x0 x1 (ix2 t l)) := by
    unfold val_main_v20
    exact RowOps.hostReduce_maximumf_row _ _ Gen.reducesTo_S32768x2000_S32768_d1 (by decide) Gen.h_S_ t
  rw [val_main_v22_apply, val_main_v21_apply, val_main_cst_4_apply, h20, val_main_cst_3_apply]
  simp only [score_at, Ideal.ofBits_def, Ideal.maximumf_def]
  exact max_eq_right ((Finset.le_fold_max _).mpr (Or.inl le_rfl))

/-- The exponential of pixel `t`'s score against slot `m` less the row's maximum. -/
theorem expShifted_at (x0 : (⟨S8x512x64x64, .f32⟩ : BufTy).Contents (Elt Ideal)) (x1 : (⟨S2000x512, .f32⟩ : BufTy).Contents (Elt Ideal))
    (t : Fin 32768) (m : Fin 2000) :
    val_main_v26 (F := Ideal) x0 x1 (ix2 t m)
      = Ideal.exp (Cert.Spec.score (val_main_v1 (F := Ideal) x0) (Cert.Spec.wnS x1) t m
          - Cert.Spec.rowMax (fun j => Cert.Spec.score (val_main_v1 (F := Ideal) x0) (Cert.Spec.wnS x1) t j)) := by
  have e : idx_main_v23 (idx_main_v24 (ix2 t m)) = ix1 t :=
    funext fun a => Fin.ext (by match a with | ⟨0, _⟩ => rfl)
  rw [val_main_v26_apply, val_main_v25_apply, val_main_v24_apply, val_main_v23_apply, e, rowMax_at, score_at]
  rfl

/-- The softmax of pixel `t`'s scores at slot `m`. -/
theorem softmax_at (x0 : (⟨S8x512x64x64, .f32⟩ : BufTy).Contents (Elt Ideal)) (x1 : (⟨S2000x512, .f32⟩ : BufTy).Contents (Elt Ideal))
    (t : Fin 32768) (m : Fin 2000) :
    val_main_v30 (F := Ideal) x0 x1 (ix2 t m)
      = Cert.Spec.softmaxRow (fun j => Cert.Spec.score (val_main_v1 (F := Ideal) x0) (Cert.Spec.wnS x1) t j) m := by
  have e : ∀ k : Fin 2000, idx_main_v27 (idx_main_v28 (idx_main_v29 (ix2 t m))) k = ix2 t k := fun k =>
    funext fun a => Fin.ext (by match a with | ⟨0, _⟩ => rfl | ⟨1, _⟩ => rfl)
  rw [val_main_v30_apply, val_main_v29_apply, val_main_v28_apply, val_main_v27_apply, val_main_cst_5_apply]
  simp only [e, expShifted_at, Ideal.ofBits_def, Ideal.ofBits_zero_f32, zero_add, Ideal.hostDivf_def]
  rfl

/-- The soft threshold of that softmax: the two selections on the comparisons with the threshold and its negative. -/
theorem thresholded_at (x0 : (⟨S8x512x64x64, .f32⟩ : BufTy).Contents (Elt Ideal)) (x1 : (⟨S2000x512, .f32⟩ : BufTy).Contents (Elt Ideal))
    (t : Fin 32768) (m : Fin 2000) :
    val_main_v40 (F := Ideal) x0 x1 (ix2 t m)
      = Cert.Spec.shr (fun j => Cert.Spec.score (val_main_v1 (F := Ideal) x0) (Cert.Spec.wnS x1) t j) m := by
  rw [val_main_v40_apply, val_main_v32_apply, val_main_v34_apply, val_main_v39_apply, val_main_v36_apply,
    val_main_v38_apply, val_main_call0_v1_apply, val_main_call0_v0_apply, val_main_v31_apply, val_main_v33_apply,
    val_main_v35_apply, val_main_v37_apply, val_main_cst_6_apply, val_main_cst_7_apply, val_main_cst_8_apply,
    val_main_cst_9_apply, val_main_cst_10_apply]
  simp only [softmax_at, Ideal.ofBits_def, Ideal.cmpf_def, Ideal.subf_def, Ideal.addf_def]
  rfl

/-- The attention of pixel `t` on slot `m`: the thresholded softmax over the floored sum of the row's absolute values. -/
theorem attention_at (x0 : (⟨S8x512x64x64, .f32⟩ : BufTy).Contents (Elt Ideal)) (x1 : (⟨S2000x512, .f32⟩ : BufTy).Contents (Elt Ideal))
    (t : Fin 32768) (m : Fin 2000) :
    val_main_v47 (F := Ideal) x0 x1 (ix2 t m)
      = Cert.Spec.att (val_main_v1 (F := Ideal) x0) (Cert.Spec.wnS x1) t m := by
  have e : ∀ k : Fin 2000, idx_main_v42 (idx_main_v43 (idx_main_v46 (ix2 t m))) k = ix2 t k := fun k =>
    funext fun a => Fin.ext (by match a with | ⟨0, _⟩ => rfl | ⟨1, _⟩ => rfl)
  rw [val_main_v47_apply, val_main_v46_apply, val_main_v45_apply, val_main_v43_apply, val_main_v42_apply,
    val_main_v44_apply, val_main_cst_12_apply, val_main_cst_11_apply]
  simp only [val_main_v41_apply, e, thresholded_at, Ideal.ofBits_def, Ideal.ofBits_zero_f32, zero_add, Ideal.hostDivf_def,
    Ideal.maximumf_def, Ideal.hostAbsf_def, Ideal.absf_def]
  rfl

/-- The output row of pixel `t` at column `q`: its attention row against column `q` of the normalised slots. -/
theorem output_at (x0 : (⟨S8x512x64x64, .f32⟩ : BufTy).Contents (Elt Ideal)) (x1 : (⟨S2000x512, .f32⟩ : BufTy).Contents (Elt Ideal))
    (t : Fin 32768) (q : Fin 512) :
    val_main_v48 (F := Ideal) x0 x1 (ix2 t q)
      = Cert.Spec.outK (val_main_v1 (F := Ideal) x0) (Cert.Spec.wnS x1) (ix2 t q) := by
  have el : ∀ k : Fin 2000, lidx_main_v48 (ix2 t q) k = ix2 t k := fun k =>
    funext fun a => Fin.ext (by match a with | ⟨0, _⟩ => rfl | ⟨1, _⟩ => rfl)
  have er : ∀ k : Fin 2000, ridx_main_v48 (ix2 t q) k = ix2 k q := fun k =>
    funext fun a => Fin.ext (by match a with | ⟨0, _⟩ => rfl | ⟨1, _⟩ => rfl)
  rw [val_main_v48_apply]
  simp only [el, er, attention_at, slotsNormalised_at]
  rfl

/-- The reference's normalised slots. -/
theorem ref_wn (x1 : (⟨S2000x512, .f32⟩ : BufTy).Contents (Elt Ideal)) :
    val_main_v17 (F := Ideal) x1 = Cert.Spec.wnS x1 := by
  funext i
  obtain ⟨p, q, rfl⟩ : ∃ (p : Fin 2000) (q : Fin 512), i = ix2 p q := ⟨i 0, i 1, eq_ix2 i⟩
  exact slotsNormalised_at x1 p q

/-- The reference's slot alignment: the Gram matrix of its normalised slots. -/
theorem ref_mm (x1 : (⟨S2000x512, .f32⟩ : BufTy).Contents (Elt Ideal)) :
    val_main_v19 (F := Ideal) x1 = Cert.Spec.mmK (Cert.Spec.wnS x1) := by
  funext i
  obtain ⟨p, q, rfl⟩ : ∃ (p q : Fin 2000), i = ix2 p q := ⟨i 0, i 1, eq_ix2 i⟩
  exact gram_at x1 p q

/-- The reference's attention, before its final re-layout. -/
theorem ref_att (x0 : (⟨S8x512x64x64, .f32⟩ : BufTy).Contents (Elt Ideal)) (x1 : (⟨S2000x512, .f32⟩ : BufTy).Contents (Elt Ideal)) :
    val_main_v47 (F := Ideal) x0 x1 = Cert.Spec.attK (val_main_v1 (F := Ideal) x0) (Cert.Spec.wnS x1) := by
  funext i
  obtain ⟨t, m, rfl⟩ : ∃ (t : Fin 32768) (m : Fin 2000), i = ix2 t m := ⟨i 0, i 1, eq_ix2 i⟩
  exact attention_at x0 x1 t m

/-- The reference's output rows, before their final re-layout. -/
theorem ref_out (x0 : (⟨S8x512x64x64, .f32⟩ : BufTy).Contents (Elt Ideal)) (x1 : (⟨S2000x512, .f32⟩ : BufTy).Contents (Elt Ideal)) :
    val_main_v48 (F := Ideal) x0 x1 = Cert.Spec.outK (val_main_v1 (F := Ideal) x0) (Cert.Spec.wnS x1) := by
  funext i
  obtain ⟨t, q, rfl⟩ : ∃ (t : Fin 32768) (q : Fin 512), i = ix2 t q := ⟨i 0, i 1, eq_ix2 i⟩
  exact output_at x0 x1 t q

end Cert.ReferenceIdeal.RefValue

end
-- ==== Proof.lean ====
/-
  The claim: the kernel program and its idealization run to the end with their arguments unchanged, the reference does
  too, and over the extended reals the idealized kernel and the reference end with the same three results.

  Both idealized programs compute, from the pixel-feature matrix XF (the first argument with channels moved last, one
  row per pixel) and the slots W: the slots with every row divided by its floored Euclidean norm; the Gram matrix of
  those rows; for each pixel the attention row (scores of the normalised pixel row against the normalised slots,
  softmax, soft threshold, division by the floored sum of absolute values); and that row against the columns of the
  normalised slots. The kernel does it in three pipelined regions over row blocks, the reference with whole-array host
  operations; entry by entry both are the specification's sums, which need no rearranging, so no finiteness is used.
  The first and last re-layouts are the same operations in both programs and are carried as they stand.
-/
import proofs.«131549_j58806692217158_1_alg».proof.Defs
import proofs.«131549_j58806692217158_1_alg».proof.Proof.Gen.Kernel
import proofs.«131549_j58806692217158_1_alg».proof.Proof.Gen.KernelIdeal
import proofs.«131549_j58806692217158_1_alg».proof.Proof.Gen.ReferenceIdeal
import proofs.«131549_j58806692217158_1_alg».proof.Proof.Gen.Pre_finite_inputs
import proofs.«131549_j58806692217158_1_alg».proof.Proof.Gen.ReferenceIdeal.Run
import proofs.«131549_j58806692217158_1_alg».proof.Proof.Gen.ReferenceIdeal.Read
import proofs.«131549_j58806692217158_1_alg».proof.Proof.K.Run
import proofs.«131549_j58806692217158_1_alg».proof.Proof.KI.Run
import proofs.«131549_j58806692217158_1_alg».proof.Proof.KValue
import proofs.«131549_j58806692217158_1_alg».proof.Proof.RefSide
import Idealize.ShloMosaic.Adequacy
import Idealize.ShloMosaic.Init

set_option maxRecDepth 16384

noncomputable section

namespace Cert.Proof

open Idealize.ShloMosaic Idealize.ShloMosaic.TcCoe Idealize.SL.Sem
open Cert.KernelIdeal.HandValue Cert.ReferenceIdeal.RefValue

/-! ## The reference's results in the kernel's terms -/

/-- The reference's pixel-feature matrix is the kernel's. -/
theorem ref_xf (x0 : (⟨Cert.ReferenceIdeal.S8x512x64x64, .f32⟩ : BufTy).Contents (Elt Ideal)) :
    Cert.ReferenceIdeal.Read.val_main_v1 (F := Ideal) x0 = xfOf x0 := rfl

/-- The reference's first result: its output rows, laid back out. -/
theorem ref_result_out (x0 : (⟨Cert.ReferenceIdeal.S8x512x64x64, .f32⟩ : BufTy).Contents (Elt Ideal))
    (x1 : (⟨Cert.ReferenceIdeal.S2000x512, .f32⟩ : BufTy).Contents (Elt Ideal)) :
    Cert.ReferenceIdeal.Read.val_main_v50 (F := Ideal) x0 x1 = outLayout (Cert.Spec.outK (xfOf x0) (Cert.Spec.wnS x1)) := by
  unfold Cert.ReferenceIdeal.Read.val_main_v50 Cert.ReferenceIdeal.Read.val_main_v49
  rw [ref_out, ref_xf]
  rfl

/-- The reference's second result: its attention rows, laid back out. -/
theorem ref_result_att (x0 : (⟨Cert.ReferenceIdeal.S8x512x64x64, .f32⟩ : BufTy).Contents (Elt Ideal))
    (x1 : (⟨Cert.ReferenceIdeal.S2000x512, .f32⟩ : BufTy).Contents (Elt Ideal)) :
    Cert.ReferenceIdeal.Read.val_main_v52 (F := Ideal) x0 x1 = attLayout (Cert.Spec.attK (xfOf x0) (Cert.Spec.wnS x1)) := by
  unfold Cert.ReferenceIdeal.Read.val_main_v52 Cert.ReferenceIdeal.Read.val_main_v51
  rw [ref_att, ref_xf]
  rfl

/-! ## The claims -/

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2.2.2) (Cert.ReferenceIdeal.Value.run (F := Ideal) m ρ)

/-- The ideal pass rewrote nothing: the idealization is the program's own text read over the extended reals. -/
theorem preserves : Cert.preserves_Kernel_KernelIdeal := trivial

/-- From memories agreeing on the arguments both idealized programs end with the specification's three arrays. -/
theorem algebraic : Cert.algebraic_KernelIdeal_ReferenceIdeal := by
  intro m ρ m' ρ' _ hagree
  refine ⟨_, _, _, run_values m ρ, ?_⟩
  refine (θ_run Cert.ReferenceIdeal.defs _ _).mono (fun _ h c => ⟨?_, ?_, ?_, (h c).2.2.2.1, (h c).2.2.2.2⟩)
    (Cert.ReferenceIdeal.Value.run (F := Ideal) m' ρ')
  · rw [(h c).1, Cert.ReferenceIdeal.Read.val_main_v50_eq, (hagree c).1, (hagree c).2]
    exact ref_result_out _ _
  · rw [(h c).2.1, Cert.ReferenceIdeal.Read.val_main_v52_eq, (hagree c).1, (hagree c).2]
    exact ref_result_att _ _
  · rw [(h c).2.2.1, Cert.ReferenceIdeal.Read.val_main_v19_eq, (hagree c).2]
    exact ref_mm _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
